-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S256x1 .f32 .bf16
  ∧ IdealRules.truncf_extf.Statement Cert.KernelIdeal.S1x4096 .f32 .bf16
  ∧ IdealRules.truncf_extf.Statement Cert.KernelIdeal.S256x1 .f32 .bf16
  ∧ IdealRules.truncf_extf.Statement Cert.KernelIdeal.S1x4096 .f32 .bf16
  ∧ IdealRules.truncf_extf.Statement Cert.KernelIdeal.S256x1 .f32 .bf16
  ∧ IdealRules.truncf_extf.Statement Cert.KernelIdeal.S1x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S1x1 : Shape := ⟨2, ![1, 1]⟩
abbrev S1x256x3 : Shape := ⟨3, ![1, 256, 3]⟩
abbrev S1x3x4096 : Shape := ⟨3, ![1, 3, 4096]⟩
abbrev S1x4096 : Shape := ⟨2, ![1, 4096]⟩
abbrev S256x3 : Shape := ⟨2, ![256, 3]⟩
abbrev S3x4096 : Shape := ⟨2, ![3, 4096]⟩
abbrev S256x1 : Shape := ⟨2, ![256, 1]⟩
abbrev S256x4096 : Shape := ⟨2, ![256, 4096]⟩
abbrev S256 : Shape := ⟨1, ![256]⟩
abbrev S4096 : Shape := ⟨1, ![4096]⟩
abbrev S1 : Shape := ⟨1, ![1]⟩
abbrev S_ : Shape := ⟨0, ![]⟩

abbrev nBuf : Space → Nat
  | .hbm => 12
  | .vmem => 7
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S1x1, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1x256x3, .f32⟩
  | .local _ .vmem, ⟨1, _⟩ => ⟨S1x256x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1, .f32⟩
  | .local _ .vmem, ⟨5, _⟩ => ⟨S1x1, .f32⟩
  | .local _ .vmem, ⟨6, _⟩ => ⟨S1x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let arg1 : BitVec 32 := BitVec.ofNat 32 (i 1).val
  let c0_i32_7 : BitVec 32 := 0#32
  let v54 : BitVec 1 := Scalar.cmpi .eq arg1 c0_i32_7
  let v55 : BitVec 1 := Scalar.andi v53 v54
  let v56 : BitVec 32 := Scalar.extui v55
  let c0_i32_8 : BitVec 32 := 0#32
  let v57 : BitVec 1 := Scalar.cmpi .ne v56 c0_i32_8
  v57

def k0_cond4 (i : grid0.Coords) : BitVec 1 :=
  let arg1 : BitVec 32 := BitVec.ofNat 32 (i 1).val
  let c15_i32 : BitVec 32 := 15#32
  let v70 : BitVec 1 := Scalar.cmpi .eq arg1 c15_i32
  let v71 : BitVec 32 := Scalar.extui v70
  let c0_i32_18 : BitVec 32 := 0#32
  let v72 : BitVec 1 := Scalar.cmpi .ne v71 c0_i32_18
  v72

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  transposes_S4x4096x3_S4x3x4096_0_2_1 : S4x4096x3.Transposes [0, 2, 1] S4x3x4096
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  slices_S256x3_o0_0_S256x1 : S256x3.Slices ![0, 0] S256x1
  slices_S256x3_o0_1_S256x1 : S256x3.Slices ![0, 1] S256x1
  slices_S256x3_o0_2_S256x1 : S256x3.Slices ![0, 2] S256x1
  slices_S3x4096_o0_0_S1x4096 : S3x4096.Slices ![0, 0] S1x4096
  slices_S3x4096_o1_0_S1x4096 : S3x4096.Slices ![1, 0] S1x4096
  slices_S3x4096_o2_0_S1x4096 : S3x4096.Slices ![2, 0] S1x4096
  bitsLt_bf16_f32 : FTy.bits .bf16 < FTy.bits .f32
  broadcasts_S256x1_S256x4096 : S256x1.Broadcasts S256x4096
  broadcasts_S1x4096_S256x4096 : S1x4096.Broadcasts S256x4096
  reduces_S256x4096_S256 : S256x4096.Reduces [1] S256
  shapeCasts_S256_S256x1 : S256.ShapeCasts S256x1
  reduces_S256x4096_S4096 : S256x4096.Reduces [0] S4096
  shapeCasts_S4096_S1x4096 : S4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S256x1_S1 : S256x1.Reduces [0] S1
  shapeCasts_S1_S1x1 : S1.ShapeCasts S1x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reduces_S1x4096_S1 : S1x4096.Reduces [1] S1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S4x4096x3.size a
  hwx0_0 : ∀ i : grid0.Coords, EltTy.bits .f32 = 32 ∨ (Rect.block (s := S4x4096x3) S1x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S4x3x4096.size a
  hwx0_1 : ∀ i : grid0.Coords, EltTy.bits .f32 = 32 ∨ (Rect.block (s := S4x3x4096) S1x3x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond4 i == 1#1) | ⟨_ + 4, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S4 : Shape := ⟨1, ![4]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096x4096_S4x4096_d1 : S4x4096x4096.ReducesTo [1] S4x4096
  reducesTo_S4x4096_S4_d1 : S4x4096.ReducesTo [1] S4
  bcast_S_S4 : S_.BroadcastsInDim S4 (![] : Fin 0 → Fin S4.rank)
  reducesTo_S4_S_d0 : S4.ReducesTo [0] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.StateK.lean ====
/-
  What the kernel's two one-word accumulators and its row of running column minima hold after the body at each
  grid point, by recursion on the point's position n = 16·b + i (batch b, row block i).

  At every point the body forms the 256 × 4096 block of squared distances between the point's 256 points of x and
  the batch's 4096 points of y, its row minima and its column minima.  The first accumulator gains the sum of the
  row minima (from zero at the first point).  The row of column minima is started afresh at a batch's first row
  block and is the pointwise minimum with what it held otherwise; at a batch's last row block its sum is added to
  the second accumulator (zero until then at the first point).
-/
import proofs.«108323_g89532888252875_cont_sun_m_849_4_alg».proof.Proof.Gen.Kernel.Frame
import proofs.«108323_g89532888252875_cont_sun_m_849_4_alg».proof.Proof.Gen.Kernel.Skeleton

noncomputable section

namespace Cert.Kernel.Hand

open Idealize.ShloMosaic Idealize.ShloMosaic.TcCoe Idealize.SL.Sem
open Cert.Kernel Cert.Kernel.Gen

variable {F : FTy → Type} [FloatOps F]
variable (m : (ℓ : Loc nD τ sig) → Buf (Elt F) ℓ)

/-- The 256 points of x the point at position `t` works on: block (b, i) of the first argument. -/
abbrev xblk (c : Dev nD) (t : Fin cfg0.N) : Vec F S1x256x3 .f32 := iblk m c 0 t
/-- The batch's 4096 points of y, coordinates first: block b of the transposed second argument. -/
abbrev yblk (c : Dev nD) (t : Fin cfg0.N) : Vec F S1x3x4096 .f32 := iblk m c 1 t

/-- The block of squared distances at position `t`. -/
abbrev dblk (c : Dev nD) (t : Fin cfg0.N) : FVec F S256x4096 .f32 := k0_pay8 (xblk m c t) (yblk m c t)
/-- Its row minima. -/
abbrev rmin (c : Dev nD) (t : Fin cfg0.N) : FVec F S256 .f32 := k0_pay9 (xblk m c t) (yblk m c t)

/-- After the body at position `n`: the sum of row minima so far, the sum of finished batches' column minima,
    and the running column minima of the current batch. -/
def stateAt (c : Dev nD) : (n : ℕ) → n < cfg0.N → Vec F S1x1 .f32 × Vec F S1x1 .f32 × Vec F S1x4096 .f32
  | 0, hn => (k0_pay4 (rmin m c ⟨0, hn⟩) k0_pay2, k0_pay3, k0_pay5 (dblk m c ⟨0, hn⟩))
  | n + 1, hn =>
    (k0_pay4 (rmin m c ⟨n + 1, hn⟩) (stateAt c n (Nat.lt_of_succ_lt hn)).1,
     if (n + 1) % 16 = 15 then
       k0_pay7 (stateAt c n (Nat.lt_of_succ_lt hn)).2.1
         (if (n + 1) % 16 = 0 then k0_pay5 (dblk m c ⟨n + 1, hn⟩)
          else k0_pay6 (dblk m c ⟨n + 1, hn⟩) (stateAt c n (Nat.lt_of_succ_lt hn)).2.2)
     else (stateAt c n (Nat.lt_of_succ_lt hn)).2.1,
     if (n + 1) % 16 = 0 then k0_pay5 (dblk m c ⟨n + 1, hn⟩)
     else k0_pay6 (dblk m c ⟨n + 1, hn⟩) (stateAt c n (Nat.lt_of_succ_lt hn)).2.2)

theorem stateAt_zero (c : Dev nD) (hn : 0 < cfg0.N) :
    stateAt m c 0 hn = (k0_pay4 (rmin m c ⟨0, hn⟩) k0_pay2, k0_pay3, k0_pay5 (dblk m c ⟨0, hn⟩)) := rfl

theorem stateAt_succ (c : Dev nD) (n : ℕ) (hn : n + 1 < cfg0.N) :
    stateAt m c (n + 1) hn =
    (k0_pay4 (rmin m c ⟨n + 1, hn⟩) (stateAt m c n (Nat.lt_of_succ_lt hn)).1,
     if (n + 1) % 16 = 15 then
       k0_pay7 (stateAt m c n (Nat.lt_of_succ_lt hn)).2.1
         (if (n + 1) % 16 = 0 then k0_pay5 (dblk m c ⟨n + 1, hn⟩)
          else k0_pay6 (dblk m c ⟨n + 1, hn⟩) (stateAt m c n (Nat.lt_of_succ_lt hn)).2.2)
     else (stateAt m c n (Nat.lt_of_succ_lt hn)).2.1,
     if (n + 1) % 16 = 0 then k0_pay5 (dblk m c ⟨n + 1, hn⟩)
     else k0_pay6 (dblk m c ⟨n + 1, hn⟩) (stateAt m c n (Nat.lt_of_succ_lt hn)).2.2) := rfl

end Cert.Kernel.Hand

end
-- ==== Proof.SharedK.lean ====
/-
  What the body's runs and the frame share: the four branch conditions of the body as propositions over the
  grid coordinates, decided once over the 64 positions n = 16·b + i in closed form (the first holds at n = 0
  only, the second where i = 0, the third where i > 0, the fourth where i = 15); where the second accumulator's
  staging buffer is left untouched (neither the first nor the fourth condition holds) and that it is written
  back at the last position only; the staging buffers and the scratch row as whole memory references.
-/
import proofs.«108323_g89532888252875_cont_sun_m_849_4_alg».proof.Proof.StateK
import proofs.«108323_g89532888252875_cont_sun_m_849_4_alg».proof.Proof.Gen.Kernel.Launch
import proofs.«108323_g89532888252875_cont_sun_m_849_4_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions -/

/-- First branch: batch 0 and row block 0. -/
abbrev cond1 (i : grid0.Coords) : Prop := k0_cond1 i = 1#1
/-- Second branch: row block 0. -/
abbrev cond2 (i : grid0.Coords) : Prop :=
  Scalar.cmpi .ne (Scalar.extui (Scalar.cmpi .eq (BitVec.ofNat 32 (i 1).val) 0#32)) 0#32 = 1#1
/-- Third branch: a later row block. -/
abbrev cond3 (i : grid0.Coords) : Prop :=
  Scalar.cmpi .ne (Scalar.extui (Scalar.cmpi .sgt (BitVec.ofNat 32 (i 1).val) 0#32)) 0#32 = 1#1
/-- Fourth branch: the last row block. -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val % 16 = 0 :=
  (by decide +kernel : ∀ t : Fin grid0.N, cond2 (grid0.coords t) ↔ t.val % 16 = 0)
theorem hcond3 : ∀ t : Fin cfg0.N, cond3 (grid0.coords t) ↔ ¬ t.val % 16 = 0 :=
  (by decide +kernel : ∀ t : Fin grid0.N, cond3 (grid0.coords t) ↔ ¬ t.val % 16 = 0)
theorem hcond4 : ∀ t : Fin cfg0.N, cond4 (grid0.coords t) ↔ t.val % 16 = 15 :=
  (by decide +kernel : ∀ t : Fin grid0.N, cond4 (grid0.coords t) ↔ t.val % 16 = 15)

/-! ## Where the windows are idle, and where the outputs are written back -/

theorem live0 : ∀ i : grid0.Coords, cfg0.idle 0 i = false := fun _ => rfl
theorem live1 : ∀ i : grid0.Coords, cfg0.idle 1 i = false := fun _ => rfl
theorem live2 : ∀ i : grid0.Coords, cfg0.idle 2 i = false := fun _ => rfl
/-- The second accumulator's buffer is stored into exactly where the first or the fourth branch is taken. -/
theorem idle3_iff : ∀ t : Fin cfg0.N, cfg0.idle 3 (grid0.coords t) = true ↔ (¬ t.val = 0 ∧ ¬ t.val % 16 = 15) :=
  (by decide +kernel : ∀ t : Fin grid0.N, cfg0.idle 3 (grid0.coords t) = true ↔ (¬ t.val = 0 ∧ ¬ t.val % 16 = 15))
theorem flush2_iff : ∀ t : Fin cfg0.N, (cfg0.win 2).flush t = true ↔ t.val = 63 :=
  (by decide +kernel : ∀ t : Fin grid0.N, win0_2.flush t = true ↔ t.val = 63)
theorem flush3_iff : ∀ t : Fin cfg0.N, (cfg0.win 3).flush t = true ↔ t.val = 63 :=
  (by decide +kernel : ∀ t : Fin grid0.N, win0_3.flush t = true ↔ t.val = 63)

/-! ## The staging buffers and the scratch row -/

abbrev ms0 (t : Fin cfg0.N) : Memref sig .tc .vmem S1x256x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
/-- The scratch row of running column minima. -/
abbrev scM : Memref sig .tc .vmem S1x4096 .f32 := Memref.whole cc0_scratch0

/-- The invariant a region starts from and ends with: the scratch row at some contents, the generator register at
    some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.RunsK.lean ====
/-
  The kernel body run symbolically at a grid point, once for each way its four branches can fall on the grid.

  On whole staging buffers holding a block x0 of points of x, a block y0 of points of y, and (where the case reads
  them) the first accumulator r, the second accumulator a and the row s of running column minima, the body runs to
  its end and leaves: the two input buffers as they were; in the first accumulator r plus the sum of the block's row
  minima (from zero at the first point); in the scratch row the block's column minima (at a batch's first row block)
  or their pointwise minimum with s; and, at a batch's last row block, in the second accumulator a plus the sum of
  the scratch row (zero at the first point).  Every store covers its whole buffer, so what a buffer holds afterwards
  is the last value stored, and a load after a store reads the value stored.
-/
import proofs.«108323_g89532888252875_cont_sun_m_849_4_alg».proof.Proof.SharedK
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The first point of the grid: both accumulators are zeroed first; the scratch row starts afresh. -/
set_option maxHeartbeats 1000000 in
theorem runA (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole)
    (hc1 : cond1 i) (hc2 : cond2 i) (hc3 : ¬cond3 i) (hc4 : ¬cond4 i)
    (x0 : Vec F S1x256x3 .f32) (y0 : Vec F S1x3x4096 .f32) (r a : Vec F S1x1 .f32) (s : Vec F S1x4096 .f32)
    (E : Set ℕ) (K : PUnit → sProp 𝕄) :
    iprop(owns (c : Thread nD τ) arg2 fullShare x0 ∗ owns (c : Thread nD τ) arg3 fullShare y0
        ∗ owns (c : Thread nD τ) arg4 fullShare r ∗ owns (c : Thread nD τ) arg5 fullShare a ∗ owns (c : Thread nD τ) arg6 fullShare s
        ∗ (iprop(owns (c : Thread nD τ) arg2 fullShare x0 ∗ owns (c : Thread nD τ) arg3 fullShare y0
            ∗ owns (c : Thread nD τ) arg4 fullShare (k0_pay4 (k0_pay9 x0 y0) k0_pay2)
            ∗ owns (c : Thread nD τ) arg5 fullShare (k0_pay3 (F := F))
            ∗ owns (c : Thread nD τ) arg6 fullShare (k0_pay5 (k0_pay8 x0 y0))) -∗ K ⟨⟩))
      ⊢ wp frame (wpE (defs₀ (F := F)) Variants.none c none) E (cc0__chamfer_tc_kernel i arg2 harg2 arg3 harg3 arg4 harg4 arg5 harg5 arg6 harg6) K := by
  simp only [cc0__chamfer_tc_kernel_eq_skeleton]; unfold cc0__chamfer_tc_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1
  obtain rfl := harg4.eq_unread hf2; obtain rfl := harg5.eq_unread hf3; obtain rfl := harg6.eq_unread hfs
  sl_exec (disch := first | exact hc1 | exact hc2 | exact hc3 | exact hc4)
  sl_step
  have hz : (![0, 0] : Fin 2 → ℕ) = fun _ => 0 := by funext a; fin_cases a <;> rfl
  have hz3 : (![0, 0, 0] : Fin 3 → ℕ) = fun _ => 0 := by funext a; fin_cases a <;> rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    (try sl_unfold_words)
    rw [View.read_writes_eq_canon _ _ _ (fun y => ⟨_, List.mem_cons_self, View.mem_set_unit_zero hz Facts₀.inb_S1x1_S1x1_0_0 y⟩)]
    rw [View.canon_cons_unit_zero (S := S1x1) hz]
    try simp only [View.readAt_eq_ld, harg2.read_unread, harg3.read_unread, harg4.read_unread, harg5.read_unread, harg6.read_unread,
        View.ld_unit_zero (S := S1x1) hz, View.ld_unit_zero (S := S1x4096) hz, View.ld_unit_zero (S := S1x256x3) hz3, View.ld_unit_zero (S := S1x3x4096) hz3,
        View.readCov_unit_zero (S := S1x1) _ hz, View.readCov_unit_zero (S := S1x4096) _ hz]
  isplitl [H3]
  · iexists _; isplitr
    swap; · iexact H3
    ipureintro
    (try sl_unfold_words)
    rw [View.read_writes_eq_canon _ _ _ (fun y => ⟨_, List.mem_cons_self, View.mem_set_unit_zero hz Facts₀.inb_S1x1_S1x1_0_0 y⟩)]
    rw [View.canon_cons_unit_zero (S := S1x1) hz]
    try simp only [View.readAt_eq_ld, harg2.read_unread, harg3.read_unread, harg4.read_unread, harg5.read_unread, harg6.read_unread,
        View.ld_unit_zero (S := S1x1) hz, View.ld_unit_zero (S := S1x4096) hz, View.ld_unit_zero (S := S1x256x3) hz3, View.ld_unit_zero (S := S1x3x4096) hz3,
        View.readCov_unit_zero (S := S1x1) _ hz, View.readCov_unit_zero (S := S1x4096) _ hz]
  iexists _; isplitr
  swap; · iexact HS
  ipureintro
  (try sl_unfold_words)
  rw [View.read_writes_eq_canon _ _ _ (fun y => ⟨_, List.mem_cons_self, View.mem_set_unit_zero hz Facts₀.inb_S1x4096_S1x4096_0_0 y⟩)]
  rw [View.canon_cons_unit_zero (S := S1x4096) hz]
  try simp only [View.readAt_eq_ld, harg2.read_unread, harg3.read_unread, harg4.read_unread, harg5.read_unread, harg6.read_unread,
      View.ld_unit_zero (S := S1x1) hz, View.ld_unit_zero (S := S1x4096) hz, View.ld_unit_zero (S := S1x256x3) hz3, View.ld_unit_zero (S := S1x3x4096) hz3,
      View.readCov_unit_zero (S := S1x1) _ hz, View.readCov_unit_zero (S := S1x4096) _ hz]

/-! The first row block of a later batch: the scratch row starts afresh; the second accumulator is not touched. -/
set_option maxHeartbeats 1000000 in
theorem runB (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole)
    (hc1 : ¬cond1 i) (hc2 : cond2 i) (hc3 : ¬cond3 i) (hc4 : ¬cond4 i)
    (x0 : Vec F S1x256x3 .f32) (y0 : Vec F S1x3x4096 .f32) (r : Vec F S1x1 .f32) (s : Vec F S1x4096 .f32)
    (E : Set ℕ) (K : PUnit → sProp 𝕄) :
    iprop(owns (c : Thread nD τ) arg2 fullShare x0 ∗ owns (c : Thread nD τ) arg3 fullShare y0
        ∗ owns (c : Thread nD τ) arg4 fullShare r ∗ owns (c : Thread nD τ) arg6 fullShare s
        ∗ (iprop(owns (c : Thread nD τ) arg2 fullShare x0 ∗ owns (c : Thread nD τ) arg3 fullShare y0
            ∗ owns (c : Thread nD τ) arg4 fullShare (k0_pay4 (k0_pay9 x0 y0) r)
            ∗ owns (c : Thread nD τ) arg6 fullShare (k0_pay5 (k0_pay8 x0 y0))) -∗ K ⟨⟩))
      ⊢ wp frame (wpE (defs₀ (F := F)) Variants.none c none) E (cc0__chamfer_tc_kernel i arg2 harg2 arg3 harg3 arg4 harg4 arg5 harg5 arg6 harg6) K := by
  simp only [cc0__chamfer_tc_kernel_eq_skeleton]; unfold cc0__chamfer_tc_kernel_skel
  simp only [k0_part1_eq_skeleton]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg6.eq_unread hfs
  sl_exec (disch := first | exact hc1 | exact hc2 | exact hc3 | exact hc4)
  sl_step
  have hz : (![0, 0] : Fin 2 → ℕ) = fun _ => 0 := by funext a; fin_cases a <;> rfl
  have hz3 : (![0, 0, 0] : Fin 3 → ℕ) = fun _ => 0 := by funext a; fin_cases a <;> rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    (try sl_unfold_words)
    rw [View.read_writes_eq_canon _ _ _ (fun y => ⟨_, List.mem_cons_self, View.mem_set_unit_zero hz Facts₀.inb_S1x1_S1x1_0_0 y⟩)]
    rw [View.canon_cons_unit_zero (S := S1x1) hz]
    try simp only [View.readAt_eq_ld, harg2.read_unread, harg3.read_unread, harg4.read_unread, harg5.read_unread, harg6.read_unread,
        View.ld_unit_zero (S := S1x1) hz, View.ld_unit_zero (S := S1x4096) hz, View.ld_unit_zero (S := S1x256x3) hz3, View.ld_unit_zero (S := S1x3x4096) hz3,
        View.readCov_unit_zero (S := S1x1) _ hz, View.readCov_unit_zero (S := S1x4096) _ hz]
  iexists _; isplitr
  swap; · iexact HS
  ipureintro
  (try sl_unfold_words)
  rw [View.read_writes_eq_canon _ _ _ (fun y => ⟨_, List.mem_cons_self, View.mem_set_unit_zero hz Facts₀.inb_S1x4096_S1x4096_0_0 y⟩)]
  rw [View.canon_cons_unit_zero (S := S1x4096) hz]
  try simp only [View.readAt_eq_ld, harg2.read_unread, harg3.read_unread, harg4.read_unread, harg5.read_unread, harg6.read_unread,
      View.ld_unit_zero (S := S1x1) hz, View.ld_unit_zero (S := S1x4096) hz, View.ld_unit_zero (S := S1x256x3) hz3, View.ld_unit_zero (S := S1x3x4096) hz3,
      View.readCov_unit_zero (S := S1x1) _ hz, View.readCov_unit_zero (S := S1x4096) _ hz]

/-! A middle row block: the scratch row takes the pointwise minimum; the second accumulator is not touched. -/
set_option maxHeartbeats 1000000 in
theorem runC (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole)
    (hc1 : ¬cond1 i) (hc2 : ¬cond2 i) (hc3 : cond3 i) (hc4 : ¬cond4 i)
    (x0 : Vec F S1x256x3 .f32) (y0 : Vec F S1x3x4096 .f32) (r : Vec F S1x1 .f32) (s : Vec F S1x4096 .f32)
    (E : Set ℕ) (K : PUnit → sProp 𝕄) :
    iprop(owns (c : Thread nD τ) arg2 fullShare x0 ∗ owns (c : Thread nD τ) arg3 fullShare y0
        ∗ owns (c : Thread nD τ) arg4 fullShare r ∗ owns (c : Thread nD τ) arg6 fullShare s
        ∗ (iprop(owns (c : Thread nD τ) arg2 fullShare x0 ∗ owns (c : Thread nD τ) arg3 fullShare y0
            ∗ owns (c : Thread nD τ) arg4 fullShare (k0_pay4 (k0_pay9 x0 y0) r)
            ∗ owns (c : Thread nD τ) arg6 fullShare (k0_pay6 (k0_pay8 x0 y0) s)) -∗ K ⟨⟩))
      ⊢ wp frame (wpE (defs₀ (F := F)) Variants.none c none) E (cc0__chamfer_tc_kernel i arg2 harg2 arg3 harg3 arg4 harg4 arg5 harg5 arg6 harg6) K := by
  simp only [cc0__chamfer_tc_kernel_eq_skeleton]; unfold cc0__chamfer_tc_kernel_skel
  simp only [k0_part1_eq_skeleton]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg6.eq_unread hfs
  sl_exec (disch := first | exact hc1 | exact hc2 | exact hc3 | exact hc4)
  sl_step
  have hz : (![0, 0] : Fin 2 → ℕ) = fun _ => 0 := by funext a; fin_cases a <;> rfl
  have hz3 : (![0, 0, 0] : Fin 3 → ℕ) = fun _ => 0 := by funext a; fin_cases a <;> rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    (try sl_unfold_words)
    rw [View.read_writes_eq_canon _ _ _ (fun y => ⟨_, List.mem_cons_self, View.mem_set_unit_zero hz Facts₀.inb_S1x1_S1x1_0_0 y⟩)]
    rw [View.canon_cons_unit_zero (S := S1x1) hz]
    try simp only [View.readAt_eq_ld, harg2.read_unread, harg3.read_unread, harg4.read_unread, harg5.read_unread, harg6.read_unread,
        View.ld_unit_zero (S := S1x1) hz, View.ld_unit_zero (S := S1x4096) hz, View.ld_unit_zero (S := S1x256x3) hz3, View.ld_unit_zero (S := S1x3x4096) hz3,
        View.readCov_unit_zero (S := S1x1) _ hz, View.readCov_unit_zero (S := S1x4096) _ hz]
  iexists _; isplitr
  swap; · iexact HS
  ipureintro
  (try sl_unfold_words)
  rw [View.read_writes_eq_canon _ _ _ (fun y => ⟨_, List.mem_cons_self, View.mem_set_unit_zero hz Facts₀.inb_S1x4096_S1x4096_0_0 y⟩)]
  rw [View.canon_cons_unit_zero (S := S1x4096) hz]
  try simp only [View.readAt_eq_ld, harg2.read_unread, harg3.read_unread, harg4.read_unread, harg5.read_unread, harg6.read_unread,
      View.ld_unit_zero (S := S1x1) hz, View.ld_unit_zero (S := S1x4096) hz, View.ld_unit_zero (S := S1x256x3) hz3, View.ld_unit_zero (S := S1x3x4096) hz3,
      View.readCov_unit_zero (S := S1x1) _ hz, View.readCov_unit_zero (S := S1x4096) _ hz]

/-! The last row block of a batch: as a middle one, and then the scratch row's sum is added to the second accumulator. -/
set_option maxHeartbeats 1000000 in
theorem runD (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole)
    (hc1 : ¬cond1 i) (hc2 : ¬cond2 i) (hc3 : cond3 i) (hc4 : cond4 i)
    (x0 : Vec F S1x256x3 .f32) (y0 : Vec F S1x3x4096 .f32) (r a : Vec F S1x1 .f32) (s : Vec F S1x4096 .f32)
    (E : Set ℕ) (K : PUnit → sProp 𝕄) :
    iprop(owns (c : Thread nD τ) arg2 fullShare x0 ∗ owns (c : Thread nD τ) arg3 fullShare y0
        ∗ owns (c : Thread nD τ) arg4 fullShare r ∗ owns (c : Thread nD τ) arg5 fullShare a ∗ owns (c : Thread nD τ) arg6 fullShare s
        ∗ (iprop(owns (c : Thread nD τ) arg2 fullShare x0 ∗ owns (c : Thread nD τ) arg3 fullShare y0
            ∗ owns (c : Thread nD τ) arg4 fullShare (k0_pay4 (k0_pay9 x0 y0) r)
            ∗ owns (c : Thread nD τ) arg5 fullShare (k0_pay7 a (k0_pay6 (k0_pay8 x0 y0) s))
            ∗ owns (c : Thread nD τ) arg6 fullShare (k0_pay6 (k0_pay8 x0 y0) s)) -∗ K ⟨⟩))
      ⊢ wp frame (wpE (defs₀ (F := F)) Variants.none c none) E (cc0__chamfer_tc_kernel i arg2 harg2 arg3 harg3 arg4 harg4 arg5 harg5 arg6 harg6) K := by
  simp only [cc0__chamfer_tc_kernel_eq_skeleton]; unfold cc0__chamfer_tc_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1
  obtain rfl := harg4.eq_unread hf2; obtain rfl := harg5.eq_unread hf3; obtain rfl := harg6.eq_unread hfs
  sl_exec (disch := first | exact hc1 | exact hc2 | exact hc3 | exact hc4)
  sl_step
  have hz : (![0, 0] : Fin 2 → ℕ) = fun _ => 0 := by funext a; fin_cases a <;> rfl
  have hz3 : (![0, 0, 0] : Fin 3 → ℕ) = fun _ => 0 := by funext a; fin_cases a <;> rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    (try sl_unfold_words)
    rw [View.read_writes_eq_canon _ _ _ (fun y => ⟨_, List.mem_cons_self, View.mem_set_unit_zero hz Facts₀.inb_S1x1_S1x1_0_0 y⟩)]
    rw [View.canon_cons_unit_zero (S := S1x1) hz]
    try simp only [View.readAt_eq_ld, harg2.read_unread, harg3.read_unread, harg4.read_unread, harg5.read_unread, harg6.read_unread,
        View.ld_unit_zero (S := S1x1) hz, View.ld_unit_zero (S := S1x4096) hz, View.ld_unit_zero (S := S1x256x3) hz3, View.ld_unit_zero (S := S1x3x4096) hz3,
        View.readCov_unit_zero (S := S1x1) _ hz, View.readCov_unit_zero (S := S1x4096) _ hz]
  isplitl [H3]
  · iexists _; isplitr
    swap; · iexact H3
    ipureintro
    (try sl_unfold_words)
    rw [View.read_writes_eq_canon _ _ _ (fun y => ⟨_, List.mem_cons_self, View.mem_set_unit_zero hz Facts₀.inb_S1x1_S1x1_0_0 y⟩)]
    rw [View.canon_cons_unit_zero (S := S1x1) hz]
    try simp only [View.readAt_eq_ld, harg2.read_unread, harg3.read_unread, harg4.read_unread, harg5.read_unread, harg6.read_unread,
        View.ld_unit_zero (S := S1x1) hz, View.ld_unit_zero (S := S1x4096) hz, View.ld_unit_zero (S := S1x256x3) hz3, View.ld_unit_zero (S := S1x3x4096) hz3,
        View.readCov_unit_zero (S := S1x1) _ hz, View.readCov_unit_zero (S := S1x4096) _ hz]
  iexists _; isplitr
  swap; · iexact HS
  ipureintro
  (try sl_unfold_words)
  rw [View.read_writes_eq_canon _ _ _ (fun y => ⟨_, List.mem_cons_self, View.mem_set_unit_zero hz Facts₀.inb_S1x4096_S1x4096_0_0 y⟩)]
  rw [View.canon_cons_unit_zero (S := S1x4096) hz]
  try simp only [View.readAt_eq_ld, harg2.read_unread, harg3.read_unread, harg4.read_unread, harg5.read_unread, harg6.read_unread,
      View.ld_unit_zero (S := S1x1) hz, View.ld_unit_zero (S := S1x4096) hz, View.ld_unit_zero (S := S1x256x3) hz3, View.ld_unit_zero (S := S1x3x4096) hz3,
      View.readCov_unit_zero (S := S1x1) _ hz, View.readCov_unit_zero (S := S1x4096) _ hz]

end Cert.Kernel.Hand

end
-- ==== Proof.FrameK.lean ====
/-
  The kernel's frame: from any memory, every fair execution of the program terminates without a fault, leaves the
  two argument arrays unchanged, and leaves each output array at what the last grid point wrote back.

  The proof data name what each staging buffer holds after the body at each point: an input buffer its block, the
  two accumulators' buffers the first two components of the state after the point, and the region's invariant has
  the scratch row at the third.  Before the body at a later point the first accumulator's buffer holds what the
  point before left (it is stored at every point and written back only after the last); the second accumulator's
  buffer is left untouched through a batch's first fifteen row blocks, so by induction through each such run it too
  holds the state's component after the point before.  The body obligation is then one of the four symbolic runs,
  chosen by the position of the point.
-/
import proofs.«108323_g89532888252875_cont_sun_m_849_4_alg».proof.Proof.RunsK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The state at a position, by the position's kind -/

theorem stateAt_first (c : Dev nD) (t : Fin cfg0.N) (hz : t.val = 0) :
    stateAt m c t.val t.isLt = (k0_pay4 (rmin m c t) k0_pay2, k0_pay3, k0_pay5 (dblk m c t)) := by
  obtain ⟨n, hn⟩ := t
  cases n with
  | zero => rfl
  | succ n => exact absurd hz (Nat.succ_ne_zero n)

theorem stateAt_later (c : Dev nD) (t : Fin cfg0.N) (hz : t.val ≠ 0) :
    stateAt m c t.val t.isLt =
    (k0_pay4 (rmin m c t) (stateAt m c (t.val - 1) (Nat.lt_of_le_of_lt (Nat.sub_le _ _) t.isLt)).1,
     if t.val % 16 = 15 then
       k0_pay7 (stateAt m c (t.val - 1) (Nat.lt_of_le_of_lt (Nat.sub_le _ _) t.isLt)).2.1
         (if t.val % 16 = 0 then k0_pay5 (dblk m c t)
          else k0_pay6 (dblk m c t) (stateAt m c (t.val - 1) (Nat.lt_of_le_of_lt (Nat.sub_le _ _) t.isLt)).2.2)
     else (stateAt m c (t.val - 1) (Nat.lt_of_le_of_lt (Nat.sub_le _ _) t.isLt)).2.1,
     if t.val % 16 = 0 then k0_pay5 (dblk m c t)
     else k0_pay6 (dblk m c t) (stateAt m c (t.val - 1) (Nat.lt_of_le_of_lt (Nat.sub_le _ _) t.isLt)).2.2) := by
  obtain ⟨n, hn⟩ := t
  cases n with
  | zero => exact absurd rfl hz
  | succ n => rfl

/-! ## The region's invariant: the scratch row at the state's third component -/

def PhiS (c : Dev nD) : (n : ℕ) → n ≤ cfg0.N → sProp 𝕄
  | 0, _ => Pipeline.ΦA spec0 c
  | n + 1, hn => iprop(iprop(owns (c : Thread nD τ) scM fullShare ((stateAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((stateAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM fullShare ((stateAt m c (n - 1) (by omega)).2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stateAt m c t.val t.isLt).1
    | ⟨3, _⟩ => (stateAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (stateAt m c t.val t.isLt).1 := by dsimp only [dats]
theorem after3 (c : Dev nD) (t : Fin cfg0.N) : (dats m 0 c).after 3 t = (stateAt m c t.val t.isLt).2.1 := by dsimp only [dats]

/-! ## What each staging buffer holds before the body -/

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The first accumulator's buffer, at a later point: what the point before left. -/
theorem before2 (c : Dev nD) (t : Fin cfg0.N) (hz : t.val ≠ 0) (d) :
    (dats m 0 c).before 2 t d = (stateAt m c (t.val - 1) (Nat.lt_of_le_of_lt (Nat.sub_le _ _) t.isLt)).1 := by
  have hN : t.val < 64 := lt_of_lt_of_eq t.isLt (show cfg0.N = 64 from N_0)
  rw [Dat.before_out_kept _ 2 rfl t hz (Bool.eq_false_iff.mpr fun h => by have := (flush2_iff _).mp h; dsimp only at this; omega)
    (fun _ => rfl) (fun _ _ => rfl)]
  dsimp only [dats]

/-- The second accumulator's buffer, at a later point: the state's component after the point before, through the
    runs of points that leave the buffer untouched. -/
theorem before3_aux (c : Dev nD) : ∀ (n : ℕ) (hn : n < cfg0.N) (hz : n ≠ 0) (d),
    (dats m 0 c).before 3 ⟨n, hn⟩ d = (stateAt m c (n - 1) (Nat.lt_of_le_of_lt (Nat.sub_le _ _) hn)).2.1
  | 0, _, hz, _ => absurd rfl hz
  | n + 1, hn, _, d => by
    have hN : n + 1 < 64 := lt_of_lt_of_eq hn (show cfg0.N = 64 from N_0)
    have hn' : n < cfg0.N := Nat.lt_of_succ_lt hn
    rw [Dat.before_of_pos _ 3 ⟨n + 1, hn⟩ (Nat.succ_ne_zero n) ((cfg0.win 3).fetch_out rfl _)]
    have hfl : (cfg0.win 3).flush ⟨n + 1 - 1, Nat.lt_of_le_of_lt (Nat.sub_le _ _) hn⟩ = false :=
      Bool.eq_false_iff.mpr fun h => by have := (flush3_iff _).mp h; dsimp only at this; omega
    rw [hfl, if_neg Bool.false_ne_true]
    show (dats m 0 c).left 3 ⟨n, hn'⟩ d = (stateAt m c n hn').2.1
    unfold Dat.left
    by_cases hi : cfg0.idle 3 (cfg0.grid.coords ⟨n, hn'⟩) = true
    · rw [hi]
      have hh := (idle3_iff ⟨n, hn'⟩).mp hi
      dsimp only at hh
      show (dats m 0 c).before 3 ⟨n, hn'⟩ d = (stateAt m c n hn').2.1
      rw [before3_aux c n hn' hh.1 d]
      obtain ⟨k, rfl⟩ : ∃ k, n = k + 1 := Nat.exists_eq_succ_of_ne_zero hh.1
      rw [stateAt_succ]; dsimp only; rw [if_neg hh.2]; rfl
    · have hi' : cfg0.idle 3 (cfg0.grid.coords ⟨n, hn'⟩) = false := Bool.eq_false_iff.mpr hi
      rw [hi']
      show (dats m 0 c).kept 3 ⟨n, hn'⟩ d = (stateAt m c n hn').2.1
      unfold Dat.kept
      rw [Pipeline.fill_of_clip_none 3 _ (fun _ => rfl) d ((dats m 0 c).after 3 ⟨n, hn'⟩), Window.fill_cut]
      dsimp only [dats]

theorem before3 (c : Dev nD) (t : Fin cfg0.N) (hz : t.val ≠ 0) (d) :
    (dats m 0 c).before 3 t d = (stateAt m c (t.val - 1) (Nat.lt_of_le_of_lt (Nat.sub_le _ _) t.isLt)).2.1 :=
  before3_aux m c t.val t.isLt hz d

/-! ## What the body must leave, window by window -/

theorem leaves0 (c : Dev nD) (t : Fin cfg0.N) :
    (dats m 0 c).leavesExact 0 t = owns (c : Thread nD τ) (ms0 t) fullShare (iblk m c 0 t) := by
  unfold Dat.leavesExact; rw [live0 _, after0]
theorem leaves1 (c : Dev nD) (t : Fin cfg0.N) :
    (dats m 0 c).leavesExact 1 t = owns (c : Thread nD τ) (ms1 t) fullShare (iblk m c 1 t) := by
  unfold Dat.leavesExact; rw [live1 _, after1]
theorem leaves2 (c : Dev nD) (t : Fin cfg0.N) :
    (dats m 0 c).leavesExact 2 t = owns (c : Thread nD τ) (ms2 t) fullShare ((stateAt m c t.val t.isLt).1) := by
  unfold Dat.leavesExact; rw [live2 _, after2]
theorem leaves3_live (c : Dev nD) (t : Fin cfg0.N) (h : t.val = 0 ∨ t.val % 16 = 15) :
    (dats m 0 c).leavesExact 3 t = owns (c : Thread nD τ) (ms3 t) fullShare ((stateAt m c t.val t.isLt).2.1) := by
  have hi : cfg0.idle 3 (cfg0.grid.coords t) = false :=
    Bool.eq_false_iff.mpr fun hi => by have := (idle3_iff t).mp hi; omega
  unfold Dat.leavesExact; rw [hi, after3]
theorem leaves3_idle (c : Dev nD) (t : Fin cfg0.N) (h0 : ¬ t.val = 0) (h15 : ¬ t.val % 16 = 15) :
    (dats m 0 c).leavesExact 3 t = iprop(∃ d, owns (c : Thread nD τ) (ms3 t) fullShare ((dats m 0 c).before 3 t d)) := by
  have hN : t.val < 64 := lt_of_lt_of_eq t.isLt (show cfg0.N = 64 from N_0)
  exact Dat.leavesExact_idle (dats m 0 c) 3 t ((idle3_iff t).mpr ⟨h0, h15⟩)
    (Bool.eq_false_iff.mpr fun h => by have := (flush3_iff _).mp h; omega)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 64 := lt_of_lt_of_eq t.isLt (show cfg0.N = 64 from N_0)
  by_cases hz : t.val = 0
  · -- the first point
    have h1 : cond1 (grid0.coords t) := (hcond1 t).mpr hz
    have h2 : cond2 (grid0.coords t) := (hcond2 t).mpr (by omega)
    have h3 : ¬cond3 (grid0.coords t) := fun h => (hcond3 t).mp h (by omega)
    have h4 : ¬cond4 (grid0.coords t) := fun h => by have := (hcond4 t).mp h; omega
    rw [leaves3_live m c t (.inl hz), stateAt_first m c t hz]
    rw [PhiS_castSucc m c t, PhiS_zero m c _ _ hz, PhiA_eq]
    iintro ⟨⟨⟨%s0, HS⟩, Hg⟩, Ho, ⟨%d0, H0⟩, ⟨%d1, H1⟩, ⟨%d2, H2⟩, ⟨%d3, H3⟩⟩
    iapply (runA c (grid0.coords t) _ (hs0 t) _ (hs1 t) _ (hs2 t) _ (hs3 t) scM (Memref.isWhole_whole _) h1 h2 h3 h4
      (iblk m c 0 t) (iblk m c 1 t) _ _ _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    iexact H3
  · rw [PhiS_castSucc m c t, PhiS_pos m c _ _ hz]
    have h1 : ¬cond1 (grid0.coords t) := fun h => hz ((hcond1 t).mp h)
    by_cases h0 : t.val % 16 = 0
    · -- the first row block of a later batch
      have h2 : cond2 (grid0.coords t) := (hcond2 t).mpr h0
      have h3 : ¬cond3 (grid0.coords t) := fun h => (hcond3 t).mp h h0
      have h4 : ¬cond4 (grid0.coords t) := fun h => by have := (hcond4 t).mp h; omega
      rw [leaves3_idle m c t hz (by omega), stateAt_later m c t hz]
      dsimp only
      rw [if_pos h0]
      iintro ⟨⟨HS, Hg⟩, Ho, ⟨%d0, H0⟩, ⟨%d1, H1⟩, ⟨%d2, H2⟩, ⟨%d3, H3⟩⟩
      rw [before2 m c t hz d2]
      iapply (runB c (grid0.coords t) _ (hs0 t) _ (hs1 t) _ (hs2 t) _ (hs3 t) scM (Memref.isWhole_whole _) h1 h2 h3 h4
        (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      isplitl [H2]; · iexact H2
      iexists d3; iexact H3
    · have h2 : ¬cond2 (grid0.coords t) := fun h => h0 ((hcond2 t).mp h)
      have h3 : cond3 (grid0.coords t) := (hcond3 t).mpr h0
      by_cases h15 : t.val % 16 = 15
      · -- the last row block of a batch
        have h4 : cond4 (grid0.coords t) := (hcond4 t).mpr h15
        rw [leaves3_live m c t (.inr h15), stateAt_later m c t hz]
        dsimp only
        rw [if_pos h15, if_neg h0]
        iintro ⟨⟨HS, Hg⟩, Ho, ⟨%d0, H0⟩, ⟨%d1, H1⟩, ⟨%d2, H2⟩, ⟨%d3, H3⟩⟩
        rw [before2 m c t hz d2, before3 m c t hz d3]
        iapply (runD c (grid0.coords t) _ (hs0 t) _ (hs1 t) _ (hs2 t) _ (hs3 t) scM (Memref.isWhole_whole _) h1 h2 h3 h4
          (iblk m c 0 t) (iblk m c 1 t) _ _ _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hg]
        · isplitl [HS]; · iexact HS
          iexact Hg
        isplitl [Ho]; · iexact Ho
        isplitl [H0]; · iexact H0
        isplitl [H1]; · iexact H1
        isplitl [H2]; · iexact H2
        iexact H3
      · -- a middle row block
        have h4 : ¬cond4 (grid0.coords t) := fun h => h15 ((hcond4 t).mp h)
        rw [leaves3_idle m c t hz h15, stateAt_later m c t hz]
        dsimp only
        rw [if_neg h0]
        iintro ⟨⟨HS, Hg⟩, Ho, ⟨%d0, H0⟩, ⟨%d1, H1⟩, ⟨%d2, H2⟩, ⟨%d3, H3⟩⟩
        rw [before2 m c t hz d2]
        iapply (runC c (grid0.coords t) _ (hs0 t) _ (hs1 t) _ (hs2 t) _ (hs3 t) scM (Memref.isWhole_whole _) h1 h2 h3 h4
          (iblk m c 0 t) (iblk m c 1 t) _ _ Set.univ _)
        isplitl [H0]; · iexact H0
        isplitl [H1]; · iexact H1
        isplitl [H2]; · iexact H2
        isplitl [HS]; · iexact HS
        iintro ⟨H0, H1, H2, HS⟩
        isplitl [HS Hg]
        · isplitl [HS]; · iexact HS
          iexact Hg
        isplitl [Ho]; · iexact Ho
        isplitl [H0]; · iexact H0
        isplitl [H1]; · iexact H1
        isplitl [H2]; · iexact H2
        iexists d3; iexact H3

theorem body_obligation (c : Dev nD) : BodyObligation (dats (F := F) m 0 c) (defs₀ (F := F)) Variants.none () Set.univ := fun t => by
  rw [bigSep_W0, bigSep_W0]
  exact sound_body m c t

/-! ## The invariant at the region's ends -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.StateI.lean ====
/-
  What the kernel's two one-word accumulators and its row of running column minima hold after the body at each
  grid point, by recursion on the point's position n = 16·b + i (batch b, row block i).

  At every point the body forms the 256 × 4096 block of squared distances between the point's 256 points of x and
  the batch's 4096 points of y, its row minima and its column minima.  The first accumulator gains the sum of the
  row minima (from zero at the first point).  The row of column minima is started afresh at a batch's first row
  block and is the pointwise minimum with what it held otherwise; at a batch's last row block its sum is added to
  the second accumulator (zero until then at the first point).
-/
import proofs.«108323_g89532888252875_cont_sun_m_849_4_alg».proof.Proof.Gen.KernelIdeal.Frame
import proofs.«108323_g89532888252875_cont_sun_m_849_4_alg».proof.Proof.Gen.KernelIdeal.Skeleton

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The 256 points of x the point at position `t` works on: block (b, i) of the first argument. -/
abbrev xblk (c : Dev nD) (t : Fin cfg0.N) : Vec F S1x256x3 .f32 := iblk m c 0 t
/-- The batch's 4096 points of y, coordinates first: block b of the transposed second argument. -/
abbrev yblk (c : Dev nD) (t : Fin cfg0.N) : Vec F S1x3x4096 .f32 := iblk m c 1 t

/-- The block of squared distances at position `t`. -/
abbrev dblk (c : Dev nD) (t : Fin cfg0.N) : FVec F S256x4096 .f32 := k0_pay8 (xblk m c t) (yblk m c t)
/-- Its row minima. -/
abbrev rmin (c : Dev nD) (t : Fin cfg0.N) : FVec F S256 .f32 := k0_pay9 (xblk m c t) (yblk m c t)

/-- After the body at position `n`: the sum of row minima so far, the sum of finished batches' column minima,
    and the running column minima of the current batch. -/
def stateAt (c : Dev nD) : (n : ℕ) → n < cfg0.N → Vec F S1x1 .f32 × Vec F S1x1 .f32 × Vec F S1x4096 .f32
  | 0, hn => (k0_pay4 (rmin m c ⟨0, hn⟩) k0_pay2, k0_pay3, k0_pay5 (dblk m c ⟨0, hn⟩))
  | n + 1, hn =>
    (k0_pay4 (rmin m c ⟨n + 1, hn⟩) (stateAt c n (Nat.lt_of_succ_lt hn)).1,
     if (n + 1) % 16 = 15 then
       k0_pay7 (stateAt c n (Nat.lt_of_succ_lt hn)).2.1
         (if (n + 1) % 16 = 0 then k0_pay5 (dblk m c ⟨n + 1, hn⟩)
          else k0_pay6 (dblk m c ⟨n + 1, hn⟩) (stateAt c n (Nat.lt_of_succ_lt hn)).2.2)
     else (stateAt c n (Nat.lt_of_succ_lt hn)).2.1,
     if (n + 1) % 16 = 0 then k0_pay5 (dblk m c ⟨n + 1, hn⟩)
     else k0_pay6 (dblk m c ⟨n + 1, hn⟩) (stateAt c n (Nat.lt_of_succ_lt hn)).2.2)

theorem stateAt_zero (c : Dev nD) (hn : 0 < cfg0.N) :
    stateAt m c 0 hn = (k0_pay4 (rmin m c ⟨0, hn⟩) k0_pay2, k0_pay3, k0_pay5 (dblk m c ⟨0, hn⟩)) := rfl

theorem stateAt_succ (c : Dev nD) (n : ℕ) (hn : n + 1 < cfg0.N) :
    stateAt m c (n + 1) hn =
    (k0_pay4 (rmin m c ⟨n + 1, hn⟩) (stateAt m c n (Nat.lt_of_succ_lt hn)).1,
     if (n + 1) % 16 = 15 then
       k0_pay7 (stateAt m c n (Nat.lt_of_succ_lt hn)).2.1
         (if (n + 1) % 16 = 0 then k0_pay5 (dblk m c ⟨n + 1, hn⟩)
          else k0_pay6 (dblk m c ⟨n + 1, hn⟩) (stateAt m c n (Nat.lt_of_succ_lt hn)).2.2)
     else (stateAt m c n (Nat.lt_of_succ_lt hn)).2.1,
     if (n + 1) % 16 = 0 then k0_pay5 (dblk m c ⟨n + 1, hn⟩)
     else k0_pay6 (dblk m c ⟨n + 1, hn⟩) (stateAt m c n (Nat.lt_of_succ_lt hn)).2.2) := rfl

end Cert.KernelIdeal.Hand

end
-- ==== Proof.SharedI.lean ====
/-
  What the body's runs and the frame share: the four branch conditions of the body as propositions over the
  grid coordinates, decided once over the 64 positions n = 16·b + i in closed form (the first holds at n = 0
  only, the second where i = 0, the third where i > 0, the fourth where i = 15); where the second accumulator's
  staging buffer is left untouched (neither the first nor the fourth condition holds) and that it is written
  back at the last position only; the staging buffers and the scratch row as whole memory references.
-/
import proofs.«108323_g89532888252875_cont_sun_m_849_4_alg».proof.Proof.StateI
import proofs.«108323_g89532888252875_cont_sun_m_849_4_alg».proof.Proof.Gen.KernelIdeal.Launch
import proofs.«108323_g89532888252875_cont_sun_m_849_4_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions -/

/-- First branch: batch 0 and row block 0. -/
abbrev cond1 (i : grid0.Coords) : Prop := k0_cond1 i = 1#1
/-- Second branch: row block 0. -/
abbrev cond2 (i : grid0.Coords) : Prop :=
  Scalar.cmpi .ne (Scalar.extui (Scalar.cmpi .eq (BitVec.ofNat 32 (i 1).val) 0#32)) 0#32 = 1#1
/-- Third branch: a later row block. -/
abbrev cond3 (i : grid0.Coords) : Prop :=
  Scalar.cmpi .ne (Scalar.extui (Scalar.cmpi .sgt (BitVec.ofNat 32 (i 1).val) 0#32)) 0#32 = 1#1
/-- Fourth branch: the last row block. -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val % 16 = 0 :=
  (by decide +kernel : ∀ t : Fin grid0.N, cond2 (grid0.coords t) ↔ t.val % 16 = 0)
theorem hcond3 : ∀ t : Fin cfg0.N, cond3 (grid0.coords t) ↔ ¬ t.val % 16 = 0 :=
  (by decide +kernel : ∀ t : Fin grid0.N, cond3 (grid0.coords t) ↔ ¬ t.val % 16 = 0)
theorem hcond4 : ∀ t : Fin cfg0.N, cond4 (grid0.coords t) ↔ t.val % 16 = 15 :=
  (by decide +kernel : ∀ t : Fin grid0.N, cond4 (grid0.coords t) ↔ t.val % 16 = 15)

/-! ## Where the windows are idle, and where the outputs are written back -/

theorem live0 : ∀ i : grid0.Coords, cfg0.idle 0 i = false := fun _ => rfl
theorem live1 : ∀ i : grid0.Coords, cfg0.idle 1 i = false := fun _ => rfl
theorem live2 : ∀ i : grid0.Coords, cfg0.idle 2 i = false := fun _ => rfl
/-- The second accumulator's buffer is stored into exactly where the first or the fourth branch is taken. -/
theorem idle3_iff : ∀ t : Fin cfg0.N, cfg0.idle 3 (grid0.coords t) = true ↔ (¬ t.val = 0 ∧ ¬ t.val % 16 = 15) :=
  (by decide +kernel : ∀ t : Fin grid0.N, cfg0.idle 3 (grid0.coords t) = true ↔ (¬ t.val = 0 ∧ ¬ t.val % 16 = 15))
theorem flush2_iff : ∀ t : Fin cfg0.N, (cfg0.win 2).flush t = true ↔ t.val = 63 :=
  (by decide +kernel : ∀ t : Fin grid0.N, win0_2.flush t = true ↔ t.val = 63)
theorem flush3_iff : ∀ t : Fin cfg0.N, (cfg0.win 3).flush t = true ↔ t.val = 63 :=
  (by decide +kernel : ∀ t : Fin grid0.N, win0_3.flush t = true ↔ t.val = 63)

/-! ## The staging buffers and the scratch row -/

abbrev ms0 (t : Fin cfg0.N) : Memref sig .tc .vmem S1x256x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
/-- The scratch row of running column minima. -/
abbrev scM : Memref sig .tc .vmem S1x4096 .f32 := Memref.whole cc0_scratch0

/-- The invariant a region starts from and ends with: the scratch row at some contents, the generator register at
    some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.RunsI.lean ====
/-
  The kernel body run symbolically at a grid point, once for each way its four branches can fall on the grid.

  On whole staging buffers holding a block x0 of points of x, a block y0 of points of y, and (where the case reads
  them) the first accumulator r, the second accumulator a and the row s of running column minima, the body runs to
  its end and leaves: the two input buffers as they were; in the first accumulator r plus the sum of the block's row
  minima (from zero at the first point); in the scratch row the block's column minima (at a batch's first row block)
  or their pointwise minimum with s; and, at a batch's last row block, in the second accumulator a plus the sum of
  the scratch row (zero at the first point).  Every store covers its whole buffer, so what a buffer holds afterwards
  is the last value stored, and a load after a store reads the value stored.
-/
import proofs.«108323_g89532888252875_cont_sun_m_849_4_alg».proof.Proof.SharedI
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The first point of the grid: both accumulators are zeroed first; the scratch row starts afresh. -/
set_option maxHeartbeats 1000000 in
theorem runA (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole)
    (hc1 : cond1 i) (hc2 : cond2 i) (hc3 : ¬cond3 i) (hc4 : ¬cond4 i)
    (x0 : Vec F S1x256x3 .f32) (y0 : Vec F S1x3x4096 .f32) (r a : Vec F S1x1 .f32) (s : Vec F S1x4096 .f32)
    (E : Set ℕ) (K : PUnit → sProp 𝕄) :
    iprop(owns (c : Thread nD τ) arg2 fullShare x0 ∗ owns (c : Thread nD τ) arg3 fullShare y0
        ∗ owns (c : Thread nD τ) arg4 fullShare r ∗ owns (c : Thread nD τ) arg5 fullShare a ∗ owns (c : Thread nD τ) arg6 fullShare s
        ∗ (iprop(owns (c : Thread nD τ) arg2 fullShare x0 ∗ owns (c : Thread nD τ) arg3 fullShare y0
            ∗ owns (c : Thread nD τ) arg4 fullShare (k0_pay4 (k0_pay9 x0 y0) k0_pay2)
            ∗ owns (c : Thread nD τ) arg5 fullShare (k0_pay3 (F := F))
            ∗ owns (c : Thread nD τ) arg6 fullShare (k0_pay5 (k0_pay8 x0 y0))) -∗ K ⟨⟩))
      ⊢ wp frame (wpE (defs₀ (F := F)) Variants.none c none) E (cc0__chamfer_tc_kernel i arg2 harg2 arg3 harg3 arg4 harg4 arg5 harg5 arg6 harg6) K := by
  simp only [cc0__chamfer_tc_kernel_eq_skeleton]; unfold cc0__chamfer_tc_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1
  obtain rfl := harg4.eq_unread hf2; obtain rfl := harg5.eq_unread hf3; obtain rfl := harg6.eq_unread hfs
  sl_exec (disch := first | exact hc1 | exact hc2 | exact hc3 | exact hc4)
  sl_step
  have hz : (![0, 0] : Fin 2 → ℕ) = fun _ => 0 := by funext a; fin_cases a <;> rfl
  have hz3 : (![0, 0, 0] : Fin 3 → ℕ) = fun _ => 0 := by funext a; fin_cases a <;> rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    (try sl_unfold_words)
    rw [View.read_writes_eq_canon _ _ _ (fun y => ⟨_, List.mem_cons_self, View.mem_set_unit_zero hz Facts₀.inb_S1x1_S1x1_0_0 y⟩)]
    rw [View.canon_cons_unit_zero (S := S1x1) hz]
    try simp only [View.readAt_eq_ld, harg2.read_unread, harg3.read_unread, harg4.read_unread, harg5.read_unread, harg6.read_unread,
        View.ld_unit_zero (S := S1x1) hz, View.ld_unit_zero (S := S1x4096) hz, View.ld_unit_zero (S := S1x256x3) hz3, View.ld_unit_zero (S := S1x3x4096) hz3,
        View.readCov_unit_zero (S := S1x1) _ hz, View.readCov_unit_zero (S := S1x4096) _ hz]
  isplitl [H3]
  · iexists _; isplitr
    swap; · iexact H3
    ipureintro
    (try sl_unfold_words)
    rw [View.read_writes_eq_canon _ _ _ (fun y => ⟨_, List.mem_cons_self, View.mem_set_unit_zero hz Facts₀.inb_S1x1_S1x1_0_0 y⟩)]
    rw [View.canon_cons_unit_zero (S := S1x1) hz]
    try simp only [View.readAt_eq_ld, harg2.read_unread, harg3.read_unread, harg4.read_unread, harg5.read_unread, harg6.read_unread,
        View.ld_unit_zero (S := S1x1) hz, View.ld_unit_zero (S := S1x4096) hz, View.ld_unit_zero (S := S1x256x3) hz3, View.ld_unit_zero (S := S1x3x4096) hz3,
        View.readCov_unit_zero (S := S1x1) _ hz, View.readCov_unit_zero (S := S1x4096) _ hz]
  iexists _; isplitr
  swap; · iexact HS
  ipureintro
  (try sl_unfold_words)
  rw [View.read_writes_eq_canon _ _ _ (fun y => ⟨_, List.mem_cons_self, View.mem_set_unit_zero hz Facts₀.inb_S1x4096_S1x4096_0_0 y⟩)]
  rw [View.canon_cons_unit_zero (S := S1x4096) hz]
  try simp only [View.readAt_eq_ld, harg2.read_unread, harg3.read_unread, harg4.read_unread, harg5.read_unread, harg6.read_unread,
      View.ld_unit_zero (S := S1x1) hz, View.ld_unit_zero (S := S1x4096) hz, View.ld_unit_zero (S := S1x256x3) hz3, View.ld_unit_zero (S := S1x3x4096) hz3,
      View.readCov_unit_zero (S := S1x1) _ hz, View.readCov_unit_zero (S := S1x4096) _ hz]

/-! The first row block of a later batch: the scratch row starts afresh; the second accumulator is not touched. -/
set_option maxHeartbeats 1000000 in
theorem runB (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole)
    (hc1 : ¬cond1 i) (hc2 : cond2 i) (hc3 : ¬cond3 i) (hc4 : ¬cond4 i)
    (x0 : Vec F S1x256x3 .f32) (y0 : Vec F S1x3x4096 .f32) (r : Vec F S1x1 .f32) (s : Vec F S1x4096 .f32)
    (E : Set ℕ) (K : PUnit → sProp 𝕄) :
    iprop(owns (c : Thread nD τ) arg2 fullShare x0 ∗ owns (c : Thread nD τ) arg3 fullShare y0
        ∗ owns (c : Thread nD τ) arg4 fullShare r ∗ owns (c : Thread nD τ) arg6 fullShare s
        ∗ (iprop(owns (c : Thread nD τ) arg2 fullShare x0 ∗ owns (c : Thread nD τ) arg3 fullShare y0
            ∗ owns (c : Thread nD τ) arg4 fullShare (k0_pay4 (k0_pay9 x0 y0) r)
            ∗ owns (c : Thread nD τ) arg6 fullShare (k0_pay5 (k0_pay8 x0 y0))) -∗ K ⟨⟩))
      ⊢ wp frame (wpE (defs₀ (F := F)) Variants.none c none) E (cc0__chamfer_tc_kernel i arg2 harg2 arg3 harg3 arg4 harg4 arg5 harg5 arg6 harg6) K := by
  simp only [cc0__chamfer_tc_kernel_eq_skeleton]; unfold cc0__chamfer_tc_kernel_skel
  simp only [k0_part1_eq_skeleton]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg6.eq_unread hfs
  sl_exec (disch := first | exact hc1 | exact hc2 | exact hc3 | exact hc4)
  sl_step
  have hz : (![0, 0] : Fin 2 → ℕ) = fun _ => 0 := by funext a; fin_cases a <;> rfl
  have hz3 : (![0, 0, 0] : Fin 3 → ℕ) = fun _ => 0 := by funext a; fin_cases a <;> rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    (try sl_unfold_words)
    rw [View.read_writes_eq_canon _ _ _ (fun y => ⟨_, List.mem_cons_self, View.mem_set_unit_zero hz Facts₀.inb_S1x1_S1x1_0_0 y⟩)]
    rw [View.canon_cons_unit_zero (S := S1x1) hz]
    try simp only [View.readAt_eq_ld, harg2.read_unread, harg3.read_unread, harg4.read_unread, harg5.read_unread, harg6.read_unread,
        View.ld_unit_zero (S := S1x1) hz, View.ld_unit_zero (S := S1x4096) hz, View.ld_unit_zero (S := S1x256x3) hz3, View.ld_unit_zero (S := S1x3x4096) hz3,
        View.readCov_unit_zero (S := S1x1) _ hz, View.readCov_unit_zero (S := S1x4096) _ hz]
  iexists _; isplitr
  swap; · iexact HS
  ipureintro
  (try sl_unfold_words)
  rw [View.read_writes_eq_canon _ _ _ (fun y => ⟨_, List.mem_cons_self, View.mem_set_unit_zero hz Facts₀.inb_S1x4096_S1x4096_0_0 y⟩)]
  rw [View.canon_cons_unit_zero (S := S1x4096) hz]
  try simp only [View.readAt_eq_ld, harg2.read_unread, harg3.read_unread, harg4.read_unread, harg5.read_unread, harg6.read_unread,
      View.ld_unit_zero (S := S1x1) hz, View.ld_unit_zero (S := S1x4096) hz, View.ld_unit_zero (S := S1x256x3) hz3, View.ld_unit_zero (S := S1x3x4096) hz3,
      View.readCov_unit_zero (S := S1x1) _ hz, View.readCov_unit_zero (S := S1x4096) _ hz]

/-! A middle row block: the scratch row takes the pointwise minimum; the second accumulator is not touched. -/
set_option maxHeartbeats 1000000 in
theorem runC (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole)
    (hc1 : ¬cond1 i) (hc2 : ¬cond2 i) (hc3 : cond3 i) (hc4 : ¬cond4 i)
    (x0 : Vec F S1x256x3 .f32) (y0 : Vec F S1x3x4096 .f32) (r : Vec F S1x1 .f32) (s : Vec F S1x4096 .f32)
    (E : Set ℕ) (K : PUnit → sProp 𝕄) :
    iprop(owns (c : Thread nD τ) arg2 fullShare x0 ∗ owns (c : Thread nD τ) arg3 fullShare y0
        ∗ owns (c : Thread nD τ) arg4 fullShare r ∗ owns (c : Thread nD τ) arg6 fullShare s
        ∗ (iprop(owns (c : Thread nD τ) arg2 fullShare x0 ∗ owns (c : Thread nD τ) arg3 fullShare y0
            ∗ owns (c : Thread nD τ) arg4 fullShare (k0_pay4 (k0_pay9 x0 y0) r)
            ∗ owns (c : Thread nD τ) arg6 fullShare (k0_pay6 (k0_pay8 x0 y0) s)) -∗ K ⟨⟩))
      ⊢ wp frame (wpE (defs₀ (F := F)) Variants.none c none) E (cc0__chamfer_tc_kernel i arg2 harg2 arg3 harg3 arg4 harg4 arg5 harg5 arg6 harg6) K := by
  simp only [cc0__chamfer_tc_kernel_eq_skeleton]; unfold cc0__chamfer_tc_kernel_skel
  simp only [k0_part1_eq_skeleton]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg6.eq_unread hfs
  sl_exec (disch := first | exact hc1 | exact hc2 | exact hc3 | exact hc4)
  sl_step
  have hz : (![0, 0] : Fin 2 → ℕ) = fun _ => 0 := by funext a; fin_cases a <;> rfl
  have hz3 : (![0, 0, 0] : Fin 3 → ℕ) = fun _ => 0 := by funext a; fin_cases a <;> rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    (try sl_unfold_words)
    rw [View.read_writes_eq_canon _ _ _ (fun y => ⟨_, List.mem_cons_self, View.mem_set_unit_zero hz Facts₀.inb_S1x1_S1x1_0_0 y⟩)]
    rw [View.canon_cons_unit_zero (S := S1x1) hz]
    try simp only [View.readAt_eq_ld, harg2.read_unread, harg3.read_unread, harg4.read_unread, harg5.read_unread, harg6.read_unread,
        View.ld_unit_zero (S := S1x1) hz, View.ld_unit_zero (S := S1x4096) hz, View.ld_unit_zero (S := S1x256x3) hz3, View.ld_unit_zero (S := S1x3x4096) hz3,
        View.readCov_unit_zero (S := S1x1) _ hz, View.readCov_unit_zero (S := S1x4096) _ hz]
  iexists _; isplitr
  swap; · iexact HS
  ipureintro
  (try sl_unfold_words)
  rw [View.read_writes_eq_canon _ _ _ (fun y => ⟨_, List.mem_cons_self, View.mem_set_unit_zero hz Facts₀.inb_S1x4096_S1x4096_0_0 y⟩)]
  rw [View.canon_cons_unit_zero (S := S1x4096) hz]
  try simp only [View.readAt_eq_ld, harg2.read_unread, harg3.read_unread, harg4.read_unread, harg5.read_unread, harg6.read_unread,
      View.ld_unit_zero (S := S1x1) hz, View.ld_unit_zero (S := S1x4096) hz, View.ld_unit_zero (S := S1x256x3) hz3, View.ld_unit_zero (S := S1x3x4096) hz3,
      View.readCov_unit_zero (S := S1x1) _ hz, View.readCov_unit_zero (S := S1x4096) _ hz]

/-! The last row block of a batch: as a middle one, and then the scratch row's sum is added to the second accumulator. -/
set_option maxHeartbeats 1000000 in
theorem runD (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole)
    (hc1 : ¬cond1 i) (hc2 : ¬cond2 i) (hc3 : cond3 i) (hc4 : cond4 i)
    (x0 : Vec F S1x256x3 .f32) (y0 : Vec F S1x3x4096 .f32) (r a : Vec F S1x1 .f32) (s : Vec F S1x4096 .f32)
    (E : Set ℕ) (K : PUnit → sProp 𝕄) :
    iprop(owns (c : Thread nD τ) arg2 fullShare x0 ∗ owns (c : Thread nD τ) arg3 fullShare y0
        ∗ owns (c : Thread nD τ) arg4 fullShare r ∗ owns (c : Thread nD τ) arg5 fullShare a ∗ owns (c : Thread nD τ) arg6 fullShare s
        ∗ (iprop(owns (c : Thread nD τ) arg2 fullShare x0 ∗ owns (c : Thread nD τ) arg3 fullShare y0
            ∗ owns (c : Thread nD τ) arg4 fullShare (k0_pay4 (k0_pay9 x0 y0) r)
            ∗ owns (c : Thread nD τ) arg5 fullShare (k0_pay7 a (k0_pay6 (k0_pay8 x0 y0) s))
            ∗ owns (c : Thread nD τ) arg6 fullShare (k0_pay6 (k0_pay8 x0 y0) s)) -∗ K ⟨⟩))
      ⊢ wp frame (wpE (defs₀ (F := F)) Variants.none c none) E (cc0__chamfer_tc_kernel i arg2 harg2 arg3 harg3 arg4 harg4 arg5 harg5 arg6 harg6) K := by
  simp only [cc0__chamfer_tc_kernel_eq_skeleton]; unfold cc0__chamfer_tc_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1
  obtain rfl := harg4.eq_unread hf2; obtain rfl := harg5.eq_unread hf3; obtain rfl := harg6.eq_unread hfs
  sl_exec (disch := first | exact hc1 | exact hc2 | exact hc3 | exact hc4)
  sl_step
  have hz : (![0, 0] : Fin 2 → ℕ) = fun _ => 0 := by funext a; fin_cases a <;> rfl
  have hz3 : (![0, 0, 0] : Fin 3 → ℕ) = fun _ => 0 := by funext a; fin_cases a <;> rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    (try sl_unfold_words)
    rw [View.read_writes_eq_canon _ _ _ (fun y => ⟨_, List.mem_cons_self, View.mem_set_unit_zero hz Facts₀.inb_S1x1_S1x1_0_0 y⟩)]
    rw [View.canon_cons_unit_zero (S := S1x1) hz]
    try simp only [View.readAt_eq_ld, harg2.read_unread, harg3.read_unread, harg4.read_unread, harg5.read_unread, harg6.read_unread,
        View.ld_unit_zero (S := S1x1) hz, View.ld_unit_zero (S := S1x4096) hz, View.ld_unit_zero (S := S1x256x3) hz3, View.ld_unit_zero (S := S1x3x4096) hz3,
        View.readCov_unit_zero (S := S1x1) _ hz, View.readCov_unit_zero (S := S1x4096) _ hz]
  isplitl [H3]
  · iexists _; isplitr
    swap; · iexact H3
    ipureintro
    (try sl_unfold_words)
    rw [View.read_writes_eq_canon _ _ _ (fun y => ⟨_, List.mem_cons_self, View.mem_set_unit_zero hz Facts₀.inb_S1x1_S1x1_0_0 y⟩)]
    rw [View.canon_cons_unit_zero (S := S1x1) hz]
    try simp only [View.readAt_eq_ld, harg2.read_unread, harg3.read_unread, harg4.read_unread, harg5.read_unread, harg6.read_unread,
        View.ld_unit_zero (S := S1x1) hz, View.ld_unit_zero (S := S1x4096) hz, View.ld_unit_zero (S := S1x256x3) hz3, View.ld_unit_zero (S := S1x3x4096) hz3,
        View.readCov_unit_zero (S := S1x1) _ hz, View.readCov_unit_zero (S := S1x4096) _ hz]
  iexists _; isplitr
  swap; · iexact HS
  ipureintro
  (try sl_unfold_words)
  rw [View.read_writes_eq_canon _ _ _ (fun y => ⟨_, List.mem_cons_self, View.mem_set_unit_zero hz Facts₀.inb_S1x4096_S1x4096_0_0 y⟩)]
  rw [View.canon_cons_unit_zero (S := S1x4096) hz]
  try simp only [View.readAt_eq_ld, harg2.read_unread, harg3.read_unread, harg4.read_unread, harg5.read_unread, harg6.read_unread,
      View.ld_unit_zero (S := S1x1) hz, View.ld_unit_zero (S := S1x4096) hz, View.ld_unit_zero (S := S1x256x3) hz3, View.ld_unit_zero (S := S1x3x4096) hz3,
      View.readCov_unit_zero (S := S1x1) _ hz, View.readCov_unit_zero (S := S1x4096) _ hz]

end Cert.KernelIdeal.Hand

end
-- ==== Proof.FrameI.lean ====
/-
  The kernel's frame: from any memory, every fair execution of the program terminates without a fault, leaves the
  two argument arrays unchanged, and leaves each output array at what the last grid point wrote back.

  The proof data name what each staging buffer holds after the body at each point: an input buffer its block, the
  two accumulators' buffers the first two components of the state after the point, and the region's invariant has
  the scratch row at the third.  Before the body at a later point the first accumulator's buffer holds what the
  point before left (it is stored at every point and written back only after the last); the second accumulator's
  buffer is left untouched through a batch's first fifteen row blocks, so by induction through each such run it too
  holds the state's component after the point before.  The body obligation is then one of the four symbolic runs,
  chosen by the position of the point.
-/
import proofs.«108323_g89532888252875_cont_sun_m_849_4_alg».proof.Proof.RunsI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The state at a position, by the position's kind -/

theorem stateAt_first (c : Dev nD) (t : Fin cfg0.N) (hz : t.val = 0) :
    stateAt m c t.val t.isLt = (k0_pay4 (rmin m c t) k0_pay2, k0_pay3, k0_pay5 (dblk m c t)) := by
  obtain ⟨n, hn⟩ := t
  cases n with
  | zero => rfl
  | succ n => exact absurd hz (Nat.succ_ne_zero n)

theorem stateAt_later (c : Dev nD) (t : Fin cfg0.N) (hz : t.val ≠ 0) :
    stateAt m c t.val t.isLt =
    (k0_pay4 (rmin m c t) (stateAt m c (t.val - 1) (Nat.lt_of_le_of_lt (Nat.sub_le _ _) t.isLt)).1,
     if t.val % 16 = 15 then
       k0_pay7 (stateAt m c (t.val - 1) (Nat.lt_of_le_of_lt (Nat.sub_le _ _) t.isLt)).2.1
         (if t.val % 16 = 0 then k0_pay5 (dblk m c t)
          else k0_pay6 (dblk m c t) (stateAt m c (t.val - 1) (Nat.lt_of_le_of_lt (Nat.sub_le _ _) t.isLt)).2.2)
     else (stateAt m c (t.val - 1) (Nat.lt_of_le_of_lt (Nat.sub_le _ _) t.isLt)).2.1,
     if t.val % 16 = 0 then k0_pay5 (dblk m c t)
     else k0_pay6 (dblk m c t) (stateAt m c (t.val - 1) (Nat.lt_of_le_of_lt (Nat.sub_le _ _) t.isLt)).2.2) := by
  obtain ⟨n, hn⟩ := t
  cases n with
  | zero => exact absurd rfl hz
  | succ n => rfl

/-! ## The region's invariant: the scratch row at the state's third component -/

def PhiS (c : Dev nD) : (n : ℕ) → n ≤ cfg0.N → sProp 𝕄
  | 0, _ => Pipeline.ΦA spec0 c
  | n + 1, hn => iprop(iprop(owns (c : Thread nD τ) scM fullShare ((stateAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((stateAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM fullShare ((stateAt m c (n - 1) (by omega)).2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stateAt m c t.val t.isLt).1
    | ⟨3, _⟩ => (stateAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (stateAt m c t.val t.isLt).1 := by dsimp only [dats]
theorem after3 (c : Dev nD) (t : Fin cfg0.N) : (dats m 0 c).after 3 t = (stateAt m c t.val t.isLt).2.1 := by dsimp only [dats]

/-! ## What each staging buffer holds before the body -/

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The first accumulator's buffer, at a later point: what the point before left. -/
theorem before2 (c : Dev nD) (t : Fin cfg0.N) (hz : t.val ≠ 0) (d) :
    (dats m 0 c).before 2 t d = (stateAt m c (t.val - 1) (Nat.lt_of_le_of_lt (Nat.sub_le _ _) t.isLt)).1 := by
  have hN : t.val < 64 := lt_of_lt_of_eq t.isLt (show cfg0.N = 64 from N_0)
  rw [Dat.before_out_kept _ 2 rfl t hz (Bool.eq_false_iff.mpr fun h => by have := (flush2_iff _).mp h; dsimp only at this; omega)
    (fun _ => rfl) (fun _ _ => rfl)]
  dsimp only [dats]

/-- The second accumulator's buffer, at a later point: the state's component after the point before, through the
    runs of points that leave the buffer untouched. -/
theorem before3_aux (c : Dev nD) : ∀ (n : ℕ) (hn : n < cfg0.N) (hz : n ≠ 0) (d),
    (dats m 0 c).before 3 ⟨n, hn⟩ d = (stateAt m c (n - 1) (Nat.lt_of_le_of_lt (Nat.sub_le _ _) hn)).2.1
  | 0, _, hz, _ => absurd rfl hz
  | n + 1, hn, _, d => by
    have hN : n + 1 < 64 := lt_of_lt_of_eq hn (show cfg0.N = 64 from N_0)
    have hn' : n < cfg0.N := Nat.lt_of_succ_lt hn
    rw [Dat.before_of_pos _ 3 ⟨n + 1, hn⟩ (Nat.succ_ne_zero n) ((cfg0.win 3).fetch_out rfl _)]
    have hfl : (cfg0.win 3).flush ⟨n + 1 - 1, Nat.lt_of_le_of_lt (Nat.sub_le _ _) hn⟩ = false :=
      Bool.eq_false_iff.mpr fun h => by have := (flush3_iff _).mp h; dsimp only at this; omega
    rw [hfl, if_neg Bool.false_ne_true]
    show (dats m 0 c).left 3 ⟨n, hn'⟩ d = (stateAt m c n hn').2.1
    unfold Dat.left
    by_cases hi : cfg0.idle 3 (cfg0.grid.coords ⟨n, hn'⟩) = true
    · rw [hi]
      have hh := (idle3_iff ⟨n, hn'⟩).mp hi
      dsimp only at hh
      show (dats m 0 c).before 3 ⟨n, hn'⟩ d = (stateAt m c n hn').2.1
      rw [before3_aux c n hn' hh.1 d]
      obtain ⟨k, rfl⟩ : ∃ k, n = k + 1 := Nat.exists_eq_succ_of_ne_zero hh.1
      rw [stateAt_succ]; dsimp only; rw [if_neg hh.2]; rfl
    · have hi' : cfg0.idle 3 (cfg0.grid.coords ⟨n, hn'⟩) = false := Bool.eq_false_iff.mpr hi
      rw [hi']
      show (dats m 0 c).kept 3 ⟨n, hn'⟩ d = (stateAt m c n hn').2.1
      unfold Dat.kept
      rw [Pipeline.fill_of_clip_none 3 _ (fun _ => rfl) d ((dats m 0 c).after 3 ⟨n, hn'⟩), Window.fill_cut]
      dsimp only [dats]

theorem before3 (c : Dev nD) (t : Fin cfg0.N) (hz : t.val ≠ 0) (d) :
    (dats m 0 c).before 3 t d = (stateAt m c (t.val - 1) (Nat.lt_of_le_of_lt (Nat.sub_le _ _) t.isLt)).2.1 :=
  before3_aux m c t.val t.isLt hz d

/-! ## What the body must leave, window by window -/

theorem leaves0 (c : Dev nD) (t : Fin cfg0.N) :
    (dats m 0 c).leavesExact 0 t = owns (c : Thread nD τ) (ms0 t) fullShare (iblk m c 0 t) := by
  unfold Dat.leavesExact; rw [live0 _, after0]
theorem leaves1 (c : Dev nD) (t : Fin cfg0.N) :
    (dats m 0 c).leavesExact 1 t = owns (c : Thread nD τ) (ms1 t) fullShare (iblk m c 1 t) := by
  unfold Dat.leavesExact; rw [live1 _, after1]
theorem leaves2 (c : Dev nD) (t : Fin cfg0.N) :
    (dats m 0 c).leavesExact 2 t = owns (c : Thread nD τ) (ms2 t) fullShare ((stateAt m c t.val t.isLt).1) := by
  unfold Dat.leavesExact; rw [live2 _, after2]
theorem leaves3_live (c : Dev nD) (t : Fin cfg0.N) (h : t.val = 0 ∨ t.val % 16 = 15) :
    (dats m 0 c).leavesExact 3 t = owns (c : Thread nD τ) (ms3 t) fullShare ((stateAt m c t.val t.isLt).2.1) := by
  have hi : cfg0.idle 3 (cfg0.grid.coords t) = false :=
    Bool.eq_false_iff.mpr fun hi => by have := (idle3_iff t).mp hi; omega
  unfold Dat.leavesExact; rw [hi, after3]
theorem leaves3_idle (c : Dev nD) (t : Fin cfg0.N) (h0 : ¬ t.val = 0) (h15 : ¬ t.val % 16 = 15) :
    (dats m 0 c).leavesExact 3 t = iprop(∃ d, owns (c : Thread nD τ) (ms3 t) fullShare ((dats m 0 c).before 3 t d)) := by
  have hN : t.val < 64 := lt_of_lt_of_eq t.isLt (show cfg0.N = 64 from N_0)
  exact Dat.leavesExact_idle (dats m 0 c) 3 t ((idle3_iff t).mpr ⟨h0, h15⟩)
    (Bool.eq_false_iff.mpr fun h => by have := (flush3_iff _).mp h; omega)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 64 := lt_of_lt_of_eq t.isLt (show cfg0.N = 64 from N_0)
  by_cases hz : t.val = 0
  · -- the first point
    have h1 : cond1 (grid0.coords t) := (hcond1 t).mpr hz
    have h2 : cond2 (grid0.coords t) := (hcond2 t).mpr (by omega)
    have h3 : ¬cond3 (grid0.coords t) := fun h => (hcond3 t).mp h (by omega)
    have h4 : ¬cond4 (grid0.coords t) := fun h => by have := (hcond4 t).mp h; omega
    rw [leaves3_live m c t (.inl hz), stateAt_first m c t hz]
    rw [PhiS_castSucc m c t, PhiS_zero m c _ _ hz, PhiA_eq]
    iintro ⟨⟨⟨%s0, HS⟩, Hg⟩, Ho, ⟨%d0, H0⟩, ⟨%d1, H1⟩, ⟨%d2, H2⟩, ⟨%d3, H3⟩⟩
    iapply (runA c (grid0.coords t) _ (hs0 t) _ (hs1 t) _ (hs2 t) _ (hs3 t) scM (Memref.isWhole_whole _) h1 h2 h3 h4
      (iblk m c 0 t) (iblk m c 1 t) _ _ _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    iexact H3
  · rw [PhiS_castSucc m c t, PhiS_pos m c _ _ hz]
    have h1 : ¬cond1 (grid0.coords t) := fun h => hz ((hcond1 t).mp h)
    by_cases h0 : t.val % 16 = 0
    · -- the first row block of a later batch
      have h2 : cond2 (grid0.coords t) := (hcond2 t).mpr h0
      have h3 : ¬cond3 (grid0.coords t) := fun h => (hcond3 t).mp h h0
      have h4 : ¬cond4 (grid0.coords t) := fun h => by have := (hcond4 t).mp h; omega
      rw [leaves3_idle m c t hz (by omega), stateAt_later m c t hz]
      dsimp only
      rw [if_pos h0]
      iintro ⟨⟨HS, Hg⟩, Ho, ⟨%d0, H0⟩, ⟨%d1, H1⟩, ⟨%d2, H2⟩, ⟨%d3, H3⟩⟩
      rw [before2 m c t hz d2]
      iapply (runB c (grid0.coords t) _ (hs0 t) _ (hs1 t) _ (hs2 t) _ (hs3 t) scM (Memref.isWhole_whole _) h1 h2 h3 h4
        (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      isplitl [H2]; · iexact H2
      iexists d3; iexact H3
    · have h2 : ¬cond2 (grid0.coords t) := fun h => h0 ((hcond2 t).mp h)
      have h3 : cond3 (grid0.coords t) := (hcond3 t).mpr h0
      by_cases h15 : t.val % 16 = 15
      · -- the last row block of a batch
        have h4 : cond4 (grid0.coords t) := (hcond4 t).mpr h15
        rw [leaves3_live m c t (.inr h15), stateAt_later m c t hz]
        dsimp only
        rw [if_pos h15, if_neg h0]
        iintro ⟨⟨HS, Hg⟩, Ho, ⟨%d0, H0⟩, ⟨%d1, H1⟩, ⟨%d2, H2⟩, ⟨%d3, H3⟩⟩
        rw [before2 m c t hz d2, before3 m c t hz d3]
        iapply (runD c (grid0.coords t) _ (hs0 t) _ (hs1 t) _ (hs2 t) _ (hs3 t) scM (Memref.isWhole_whole _) h1 h2 h3 h4
          (iblk m c 0 t) (iblk m c 1 t) _ _ _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hg]
        · isplitl [HS]; · iexact HS
          iexact Hg
        isplitl [Ho]; · iexact Ho
        isplitl [H0]; · iexact H0
        isplitl [H1]; · iexact H1
        isplitl [H2]; · iexact H2
        iexact H3
      · -- a middle row block
        have h4 : ¬cond4 (grid0.coords t) := fun h => h15 ((hcond4 t).mp h)
        rw [leaves3_idle m c t hz h15, stateAt_later m c t hz]
        dsimp only
        rw [if_neg h0]
        iintro ⟨⟨HS, Hg⟩, Ho, ⟨%d0, H0⟩, ⟨%d1, H1⟩, ⟨%d2, H2⟩, ⟨%d3, H3⟩⟩
        rw [before2 m c t hz d2]
        iapply (runC c (grid0.coords t) _ (hs0 t) _ (hs1 t) _ (hs2 t) _ (hs3 t) scM (Memref.isWhole_whole _) h1 h2 h3 h4
          (iblk m c 0 t) (iblk m c 1 t) _ _ Set.univ _)
        isplitl [H0]; · iexact H0
        isplitl [H1]; · iexact H1
        isplitl [H2]; · iexact H2
        isplitl [HS]; · iexact HS
        iintro ⟨H0, H1, H2, HS⟩
        isplitl [HS Hg]
        · isplitl [HS]; · iexact HS
          iexact Hg
        isplitl [Ho]; · iexact Ho
        isplitl [H0]; · iexact H0
        isplitl [H1]; · iexact H1
        isplitl [H2]; · iexact H2
        iexists d3; iexact H3

theorem body_obligation (c : Dev nD) : BodyObligation (dats (F := F) m 0 c) (defs₀ (F := F)) Variants.none () Set.univ := fun t => by
  rw [bigSep_W0, bigSep_W0]
  exact sound_body m c t

/-! ## The invariant at the region's ends -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Spec.lean ====
/-
  The Chamfer loss as one function of two arrays of point clouds, over the extended reals.

  For clouds x, y : 4 batches of 4096 points in three coordinates, the squared distance of point n of x
  and point m of y is written  |x_n|² + |y_m|² − 2·⟨x_n, y_m⟩; each point of x takes the minimum over the
  points of y (and each point of y the minimum over the points of x), the minima are summed over the points
  and the batches, and each total is divided by the number of points, 4·4096 = 16384.
  A minimum over a finite index set is the lattice infimum `Finset.inf`, whose value on the empty set is
  +∞, the value both programs start their minimum reductions from.
-/
import Idealize.ShloMosaic.PureOps.Ideal
import Idealize.ShloMosaic.Lib.ValueIdx

noncomputable section

namespace Chamfer

open Idealize.ShloMosaic Idealize.ShloMosaic.ValueIdx

/-- Four clouds of 4096 points in three coordinates. -/
abbrev SPts : Shape := ⟨3, ![4, 4096, 3]⟩
abbrev Pts : Type := SPts.Idx → EReal

/-- The real number two, as both programs spell it (the f32 word of 2.0). -/
abbrev two : EReal := Ideal.ofBits .f32 0x40000000#32
/-- The divisor 16384 = 4 · 4096, as the kernel's host code spells it (the f32 word of 16384.0). -/
abbrev c16384 : EReal := Ideal.ofBits .f32 0x46800000#32

/-- |p_n|², the three squares added left to right. -/
def sq (p : Pts) (b : Fin 4) (n : Fin 4096) : EReal :=
  p (ix3 b n 0) * p (ix3 b n 0) + p (ix3 b n 1) * p (ix3 b n 1) + p (ix3 b n 2) * p (ix3 b n 2)

/-- ⟨x_n, y_m⟩, the three products added left to right. -/
def dot (x y : Pts) (b : Fin 4) (n m : Fin 4096) : EReal :=
  x (ix3 b n 0) * y (ix3 b m 0) + x (ix3 b n 1) * y (ix3 b m 1) + x (ix3 b n 2) * y (ix3 b m 2)

/-- The squared distance |x_n|² + |y_m|² − 2⟨x_n, y_m⟩. -/
def dist (x y : Pts) (b : Fin 4) (n m : Fin 4096) : EReal :=
  (sq x b n + sq y b m) - two * dot x y b n m

/-- The squared distance from point n of x to the nearest point of y. -/
def rowMin (x y : Pts) (b : Fin 4) (n : Fin 4096) : EReal := Finset.univ.inf fun m => dist x y b n m
/-- The squared distance from point m of y to the nearest point of x. -/
def colMin (x y : Pts) (b : Fin 4) (m : Fin 4096) : EReal := Finset.univ.inf fun n => dist x y b n m

/-- The nearest-neighbour distances of all points of x, summed over the points and the batches. -/
def rowSum (x y : Pts) : EReal := ∑ b : Fin 4, ∑ n : Fin 4096, rowMin x y b n
/-- The nearest-neighbour distances of all points of y, summed over the points and the batches. -/
def colSum (x y : Pts) : EReal := ∑ b : Fin 4, ∑ m : Fin 4096, colMin x y b m

/-- The Chamfer loss: each total over the number of points, the two quotients added. -/
def loss (x y : Pts) : EReal := Ideal.div (rowSum x y) c16384 + Ideal.div (colSum x y) c16384

end Chamfer

end
-- ==== Proof.PayI.lean ====
/-
  The kernel body's pure values read at an index, over the extended reals.

  For a block xb of 256 points of x (shape 1 × 256 × 3) and a block yb of the 4096 points of y with the
  coordinate axis first (shape 1 × 3 × 4096), the body's distance block at (r, q) is
  |xb_r|² + |yb_q|² − 2⟨xb_r, yb_q⟩; its row minima and column minima are infima over the other axis; the two
  accumulators gain a plain sum; the running column minima take a pointwise minimum.
-/
import proofs.«108323_g89532888252875_cont_sun_m_849_4_alg».proof.Proof.Gen.KernelIdeal.Skeleton
import proofs.«108323_g89532888252875_cont_sun_m_849_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.TcCoe Idealize.ShloMosaic.ValueIdx
open Cert.KernelIdeal Cert.KernelIdeal.Gen

/-- |xb_r|² for row r of a block of x. -/
def bsqx (xb : Vec Ideal S1x256x3 .f32) (r : Fin 256) : EReal :=
  xb (ix3 0 r 0) * xb (ix3 0 r 0) + xb (ix3 0 r 1) * xb (ix3 0 r 1) + xb (ix3 0 r 2) * xb (ix3 0 r 2)
/-- |yb_q|² for column q of a block of y (coordinate axis first). -/
def bsqy (yb : Vec Ideal S1x3x4096 .f32) (q : Fin 4096) : EReal :=
  yb (ix3 0 0 q) * yb (ix3 0 0 q) + yb (ix3 0 1 q) * yb (ix3 0 1 q) + yb (ix3 0 2 q) * yb (ix3 0 2 q)
/-- ⟨xb_r, yb_q⟩. -/
def bdot (xb : Vec Ideal S1x256x3 .f32) (yb : Vec Ideal S1x3x4096 .f32) (r : Fin 256) (q : Fin 4096) : EReal :=
  xb (ix3 0 r 0) * yb (ix3 0 0 q) + xb (ix3 0 r 1) * yb (ix3 0 1 q) + xb (ix3 0 r 2) * yb (ix3 0 2 q)
/-- The squared distance of row r of xb and column q of yb. -/
def bdist (xb : Vec Ideal S1x256x3 .f32) (yb : Vec Ideal S1x3x4096 .f32) (r : Fin 256) (q : Fin 4096) : EReal :=
  (bsqx xb r + bsqy yb q) - Chamfer.two * bdot xb yb r q

/-! Each layout step of the body read at one index. -/

/-- Dropping the unit batch axis of a block of x keeps (r, c). -/
theorem castX_apply (xb : Vec Ideal S1x256x3 .f32) (h : S1x256x3.ShapeCasts S256x3) (r : Fin 256) (c : Fin 3) :
    shapeCast S256x3 xb h (ix2 r c) = xb (ix3 0 r c) :=
  shapeCast_apply xb h (ix2 r c) (ix3 0 r c) (by
    rw [Shape.rowMajor_val_three, Shape.rowMajor_val_two]
    show (0 * 256 + r.val) * 3 + c.val = r.val * 3 + c.val
    omega)

/-- Dropping the unit batch axis of a block of y keeps (c, q). -/
theorem castY_apply (yb : Vec Ideal S1x3x4096 .f32) (h : S1x3x4096.ShapeCasts S3x4096) (c : Fin 3) (q : Fin 4096) :
    shapeCast S3x4096 yb h (ix2 c q) = yb (ix3 0 c q) :=
  shapeCast_apply yb h (ix2 c q) (ix3 0 c q) (by
    rw [Shape.rowMajor_val_three, Shape.rowMajor_val_two]
    show (0 * 3 + c.val) * 4096 + q.val = c.val * 4096 + q.val
    omega)

/-- Column c of a 256 × 3 array, as a 256 × 1 array, read at row r. -/
theorem sliceCol_apply (v : FVec Ideal S256x3 .f32) (c : Nat) (hc : c < 3) (h : S256x3.Slices ![0, c] S256x1) (r : Fin 256) :
    extractStridedSlice S256x1 ![0, c] v h (ix2 r 0) = v (ix2 r ⟨c, hc⟩) :=
  extractStridedSlice_apply ![0, c] v h (ix2 r 0) (ix2 r ⟨c, hc⟩) (fun a => match a with
    | ⟨0, _⟩ => by show r.val = 0 + r.val; omega
    | ⟨1, _⟩ => by show c = c + 0; omega)

/-- Row c of a 3 × 4096 array, as a 1 × 4096 array, read at column q. -/
theorem sliceRow_apply (v : FVec Ideal S3x4096 .f32) (c : Nat) (hc : c < 3) (h : S3x4096.Slices ![c, 0] S1x4096) (q : Fin 4096) :
    extractStridedSlice S1x4096 ![c, 0] v h (ix2 0 q) = v (ix2 ⟨c, hc⟩ q) :=
  extractStridedSlice_apply ![c, 0] v h (ix2 0 q) (ix2 ⟨c, hc⟩ q) (fun a => match a with
    | ⟨0, _⟩ => by show c = c + 0; omega
    | ⟨1, _⟩ => by show q.val = 0 + q.val; omega)

/-- A column vector spread along the columns reads its row. -/
theorem spreadCol_apply (v : FVec Ideal S256x1 .f32) (h : S256x1.Broadcasts S256x4096) (r : Fin 256) (q : Fin 4096) :
    broadcastTo S256x4096 v h (ix2 r q) = v (ix2 r 0) :=
  broadcastTo_apply v h (ix2 r q) (ix2 r 0) (fun a => match a with
    | ⟨0, _⟩ => rfl
    | ⟨1, _⟩ => rfl)

/-- A row vector spread along the rows reads its column. -/
theorem spreadRow_apply (v : FVec Ideal S1x4096 .f32) (h : S1x4096.Broadcasts S256x4096) (r : Fin 256) (q : Fin 4096) :
    broadcastTo S256x4096 v h (ix2 r q) = v (ix2 0 q) :=
  broadcastTo_apply v h (ix2 r q) (ix2 0 q) (fun a => match a with
    | ⟨0, _⟩ => rfl
    | ⟨1, _⟩ => rfl)

/-- Coordinate c of row r of the block of x, through the two steps that extract it. -/
theorem xcoord_apply (xb : Vec Ideal S1x256x3 .f32) (h₁ : S1x256x3.ShapeCasts S256x3) (c : Nat) (hc : c < 3)
    (h₂ : S256x3.Slices ![0, c] S256x1) (r : Fin 256) :
    extractStridedSlice S256x1 ![0, c] (shapeCast S256x3 xb h₁) h₂ (ix2 r 0) = xb (ix3 0 r ⟨c, hc⟩) :=
  (sliceCol_apply _ c hc h₂ r).trans (castX_apply xb h₁ r ⟨c, hc⟩)

/-- Coordinate c of column q of the block of y, through the two steps that extract it. -/
theorem ycoord_apply (yb : Vec Ideal S1x3x4096 .f32) (h₁ : S1x3x4096.ShapeCasts S3x4096) (c : Nat) (hc : c < 3)
    (h₂ : S3x4096.Slices ![c, 0] S1x4096) (q : Fin 4096) :
    extractStridedSlice S1x4096 ![c, 0] (shapeCast S3x4096 yb h₁) h₂ (ix2 0 q) = yb (ix3 0 ⟨c, hc⟩ q) :=
  (sliceRow_apply _ c hc h₂ q).trans (castY_apply yb h₁ ⟨c, hc⟩ q)

/-! The three re-shapings to and from vectors, read at one index. -/

/-- A length-256 vector viewed as a column reads its coordinate. -/
theorem colOf_apply (v : FVec Ideal S256 .f32) (h : S256.ShapeCasts S256x1) (r : Fin 256) (c : Fin 1) :
    shapeCast S256x1 v h (ix2 r c) = v (ix1 r) :=
  shapeCast_apply v h (ix2 r c) (ix1 r) (by
    rw [Shape.rowMajor_val_one, Shape.rowMajor_val_two]
    have hc : c.val < 1 := c.isLt
    show r.val = r.val * 1 + c.val
    omega)

/-- A length-4096 vector viewed as a row reads its coordinate. -/
theorem rowOf_apply (v : FVec Ideal S4096 .f32) (h : S4096.ShapeCasts S1x4096) (q : Fin 4096) :
    shapeCast S1x4096 v h (ix2 0 q) = v (ix1 q) :=
  shapeCast_apply v h (ix2 0 q) (ix1 q) (by
    rw [Shape.rowMajor_val_one, Shape.rowMajor_val_two]
    show q.val = 0 * 4096 + q.val
    omega)

/-- A one-element vector viewed as a 1 × 1 array reads its element. -/
theorem oneOf_apply (v : FVec Ideal S1 .f32) (h : S1.ShapeCasts S1x1) (j : S1x1.Idx) :
    shapeCast S1x1 v h j = v (ix1 0) :=
  shapeCast_apply v h j (ix1 0) (by
    rw [Shape.rowMajor_val_one, Shape.rowMajor_val_two]
    have h0 : (j 0).val < 1 := (j 0).isLt
    have h1 : (j 1).val < 1 := (j 1).isLt
    show 0 = (j 0).val * 1 + (j 1).val
    omega)

/-! The sums over one axis, read at the one index of their result. -/

/-- The sum of a column vector over its rows. -/
theorem sumRows_apply (v : FVec Ideal S256x1 .f32) (h : S256x1.Reduces [0] S1) (hφ : FKind.Formats .f32)
    (hacc : (0x00000000#32 : BitVec 32) = FKind.add.neutral .f32 hφ) (j : S1.Idx) :
    multiReduction .add [0] S1 v 0x00000000#32 h hφ hacc j = ∑ r : Fin 256, v (ix2 r 0) := by
  refine (Ideal.multiReduction_add_single v _ h hφ hacc j).trans ?_
  refine Finset.sum_congr rfl fun r _ => congrArg v (funext fun a => ?_)
  match a with
  | ⟨0, _⟩ => exact Fin.ext rfl
  | ⟨1, _⟩ => exact Fin.ext (by have h0 : (j 0).val < 1 := (j 0).isLt; show (j 0).val = 0; omega)

/-- The sum of a row vector over its columns. -/
theorem sumCols_apply (v : FVec Ideal S1x4096 .f32) (h : S1x4096.Reduces [1] S1) (hφ : FKind.Formats .f32)
    (hacc : (0x00000000#32 : BitVec 32) = FKind.add.neutral .f32 hφ) (j : S1.Idx) :
    multiReduction .add [1] S1 v 0x00000000#32 h hφ hacc j = ∑ q : Fin 4096, v (ix2 0 q) := by
  refine (Ideal.multiReduction_add_single v _ h hφ hacc j).trans ?_
  refine Finset.sum_congr rfl fun q _ => congrArg v (funext fun a => ?_)
  match a with
  | ⟨0, _⟩ => exact Fin.ext (by have h0 : (j 0).val < 1 := (j 0).isLt; show (j 0).val = 0; omega)
  | ⟨1, _⟩ => exact Fin.ext rfl

/-! The minima over one axis. -/

/-- The word of +∞ is the top extended real. -/
theorem ofBits_inf_f32 : Ideal.ofBits .f32 0x7F800000#32 = ⊤ := by simp [Ideal.ofBits, Ideal.ieee]

/-- A minimum-reduction over one axis is the fold of min, from the accumulator's value, over that axis's coordinates. -/
theorem minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) :=
  (multiReduction_minimumf_eq_fold src acc h hφ hacc j).trans (h.fold_filter_drop_single _ _ src j)

/-- The column minima of a 256 × 4096 array. -/
theorem minRows_apply (v : FVec Ideal S256x4096 .f32) (h : S256x4096.Reduces [0] S4096) (hφ : FKind.Formats .f32)
    (hacc : (0x7F800000#32 : BitVec 32) = FKind.minimumf.neutral .f32 hφ) (q : Fin 4096) :
    multiReduction .minimumf [0] S4096 v 0x7F800000#32 h hφ hacc (ix1 q) = Finset.univ.inf fun r : Fin 256 => v (ix2 r q) := by
  refine (minimumf_single v _ h hφ hacc (ix1 q)).trans ?_
  rw [ofBits_inf_f32]
  have e : (v ∘ h.lift (ix1 q)) = fun r : Fin 256 => v (ix2 r q) := funext fun r => congrArg v (funext fun a =>
    match a with
    | ⟨0, _⟩ => Fin.ext rfl
    | ⟨1, _⟩ => Fin.ext rfl)
  rw [e]
  rfl

/-- The row minima of a 256 × 4096 array. -/
theorem minCols_apply (v : FVec Ideal S256x4096 .f32) (h : S256x4096.Reduces [1] S256) (hφ : FKind.Formats .f32)
    (hacc : (0x7F800000#32 : BitVec 32) = FKind.minimumf.neutral .f32 hφ) (r : Fin 256) :
    multiReduction .minimumf [1] S256 v 0x7F800000#32 h hφ hacc (ix1 r) = Finset.univ.inf fun q : Fin 4096 => v (ix2 r q) := by
  refine (minimumf_single v _ h hφ hacc (ix1 r)).trans ?_
  rw [ofBits_inf_f32]
  have e : (v ∘ h.lift (ix1 r)) = fun q : Fin 4096 => v (ix2 r q) := funext fun q => congrArg v (funext fun a =>
    match a with
    | ⟨0, _⟩ => Fin.ext rfl
    | ⟨1, _⟩ => Fin.ext rfl)
  rw [e]
  rfl

theorem pay8_apply (xb : Vec Ideal S1x256x3 .f32) (yb : Vec Ideal S1x3x4096 .f32) (r : Fin 256) (q : Fin 4096) :
    k0_pay8 (F := Ideal) xb yb (ix2 r q) = bdist xb yb r q := by
  unfold k0_pay8 bdist bsqx bsqy bdot
  simp only [subf_apply, addf_apply, mulf_apply, broadcast_apply, spreadCol_apply, spreadRow_apply,
    xcoord_apply xb _ 0 (by decide), xcoord_apply xb _ 1 (by decide), xcoord_apply xb _ 2 (by decide),
    ycoord_apply yb _ 0 (by decide), ycoord_apply yb _ 1 (by decide), ycoord_apply yb _ 2 (by decide)]
  rfl

theorem pay9_apply (xb : Vec Ideal S1x256x3 .f32) (yb : Vec Ideal S1x3x4096 .f32) (r : Fin 256) :
    k0_pay9 (F := Ideal) xb yb (ix1 r) = Finset.univ.inf fun q : Fin 4096 => bdist xb yb r q := by
  unfold k0_pay9
  refine (minCols_apply (k0_pay8 xb yb) _ _ _ r).trans ?_
  exact Finset.inf_congr rfl fun q _ => pay8_apply xb yb r q

theorem pay1_apply (v : FVec Ideal S256x4096 .f32) (q : Fin 4096) :
    k0_pay1 (F := Ideal) v (ix2 0 q) = Finset.univ.inf fun r : Fin 256 => v (ix2 r q) := by
  unfold k0_pay1
  refine (rowOf_apply _ _ q).trans ?_
  exact minRows_apply v _ _ _ q

theorem pay2_apply (j : S1x1.Idx) : k0_pay2 (F := Ideal) j = 0 :=
  Ideal.ofBits_zero_f32

theorem pay3_apply (j : S1x1.Idx) : k0_pay3 (F := Ideal) j = 0 :=
  Ideal.ofBits_zero_f32

theorem pay4_apply (v49 : FVec Ideal S256 .f32) (v58 : Vec Ideal S1x1 .f32) (j : S1x1.Idx) :
    k0_pay4 (F := Ideal) v49 v58 j = v58 j + ∑ r : Fin 256, v49 (ix1 r) := by
  unfold k0_pay4
  refine congrArg₂ (· + ·) (congrFun (shapeCast_self v58 _) j) ?_
  refine (oneOf_apply _ _ j).trans ?_
  refine (sumRows_apply _ _ _ _ (ix1 0)).trans ?_
  exact Finset.sum_congr rfl fun r _ => colOf_apply v49 _ r 0

theorem pay5_eq (v : FVec Ideal S256x4096 .f32) : k0_pay5 (F := Ideal) v = k0_pay1 v :=
  shapeCast_self _ _

theorem pay6_apply (v : FVec Ideal S256x4096 .f32) (s : Vec Ideal S1x4096 .f32) (q : Fin 4096) :
    k0_pay6 (F := Ideal) v s (ix2 0 q) = min (s (ix2 0 q)) (k0_pay1 v (ix2 0 q)) := by
  exact congrFun (shapeCast_self (minimumf s (k0_pay1 v)) _) (ix2 0 q)

theorem pay7_apply (a : Vec Ideal S1x1 .f32) (s : Vec Ideal S1x4096 .f32) (j : S1x1.Idx) :
    k0_pay7 (F := Ideal) a s j = a j + ∑ q : Fin 4096, s (ix2 0 q) := by
  unfold k0_pay7
  refine congrArg₂ (· + ·) (congrFun (shapeCast_self a _) j) ?_
  refine (oneOf_apply _ _ j).trans ?_
  exact sumCols_apply s _ _ _ (ix1 0)

end Cert.KernelIdeal.Hand

end
-- ==== Proof.Tiling.lean ====
/-
  Splitting the 4096 rows of a cloud into 16 blocks of 256, and the 64 grid positions into 4 batches of 16.

  Row 256·i + r is row r of block i; position 16·b + i is row block i of batch b.  A sum (in any commutative
  monoid) or an infimum (of extended reals) over all rows is the iterated one over the blocks and the rows of a
  block, and a sum over all positions is the iterated one over the batches and the row blocks.
-/
import Mathlib.Algebra.BigOperators.Fin
import Mathlib.Algebra.BigOperators.Group.Finset.Basic
import Mathlib.Data.EReal.Basic
import Mathlib.Data.Fintype.Lattice
import Mathlib.Order.CompleteLattice.Finset

namespace Chamfer

/-- Row r of row block i. -/
def rowOf (i : Fin 16) (r : Fin 256) : Fin 4096 := ⟨256 * i.val + r.val, by have := i.isLt; have := r.isLt; omega⟩
/-- The position of row block i of batch b. -/
def posOf (b : Fin 4) (i : Fin 16) : Fin 64 := ⟨16 * b.val + i.val, by have := b.isLt; have := i.isLt; omega⟩

theorem rowOf_val (i : Fin 16) (r : Fin 256) : (rowOf i r).val = 256 * i.val + r.val := rfl
theorem posOf_val (b : Fin 4) (i : Fin 16) : (posOf b i).val = 16 * b.val + i.val := rfl

/-- The rows as pairs (block, row of the block): 256·i + r runs once over 0 … 4095. -/
def rowEquiv : Fin 16 × Fin 256 ≃ Fin 4096 where
  toFun p := rowOf p.1 p.2
  invFun n := (⟨n.val / 256, by have := n.isLt; omega⟩, ⟨n.val % 256, Nat.mod_lt _ (by norm_num)⟩)
  left_inv p := by
    rcases p with ⟨i, r⟩
    have hi := i.isLt
    have hr := r.isLt
    apply Prod.ext <;> apply Fin.ext <;> simp only [rowOf_val] <;> omega
  right_inv n := by
    apply Fin.ext
    simp only [rowOf_val]
    omega

/-- The positions as pairs (batch, row block): 16·b + i runs once over 0 … 63. -/
def posEquiv : Fin 4 × Fin 16 ≃ Fin 64 where
  toFun p := posOf p.1 p.2
  invFun t := (⟨t.val / 16, by have := t.isLt; omega⟩, ⟨t.val % 16, Nat.mod_lt _ (by norm_num)⟩)
  left_inv p := by
    rcases p with ⟨b, i⟩
    have hb := b.isLt
    have hi := i.isLt
    apply Prod.ext <;> apply Fin.ext <;> simp only [posOf_val] <;> omega
  right_inv t := by
    apply Fin.ext
    simp only [posOf_val]
    omega

/-- A sum over the 4096 rows, block by block. -/
theorem sum_rowOf {M : Type*} [AddCommMonoid M] (f : Fin 4096 → M) :
    ∑ n : Fin 4096, f n = ∑ i : Fin 16, ∑ r : Fin 256, f (rowOf i r) :=
  (Equiv.sum_comp rowEquiv f).symm.trans (Fintype.sum_prod_type fun p => f (rowEquiv p))

/-- An infimum over the 4096 rows, block by block. -/
theorem inf_rowOf (f : Fin 4096 → EReal) :
    Finset.univ.inf f = Finset.univ.inf fun i : Fin 16 => Finset.univ.inf fun r : Fin 256 => f (rowOf i r) := by
  simp only [Finset.inf_univ_eq_iInf]
  rw [← rowEquiv.iInf_comp (g := f)]
  exact iInf_prod

/-- A sum over the 64 positions, batch by batch. -/
theorem sum_posOf {M : Type*} [AddCommMonoid M] (g : Fin 64 → M) :
    ∑ t : Fin 64, g t = ∑ b : Fin 4, ∑ i : Fin 16, g (posOf b i) :=
  (Equiv.sum_comp posEquiv g).symm.trans (Fintype.sum_prod_type fun p => g (posEquiv p))

end Chamfer
-- ==== Proof.ValueI.lean ====
/-
  What the kernel's two accumulators hold after the last grid point: the two totals of the Chamfer loss.

  Position n = 16·b + i works on batch b and on rows 256·i … 256·i + 255 of x.  By induction on the position the
  first accumulator is the sum of the row minima of all rows met so far; the running column minima are, at each
  column, the infimum over the rows of the current batch met so far; and the second accumulator is the sum over
  the finished batches of their column minima summed over the columns.  After position 63 every row of every
  batch has been met.
-/
import proofs.«108323_g89532888252875_cont_sun_m_849_4_alg».proof.Proof.StateI
import proofs.«108323_g89532888252875_cont_sun_m_849_4_alg».proof.Proof.PayI
import proofs.«108323_g89532888252875_cont_sun_m_849_4_alg».proof.Proof.Spec
import proofs.«108323_g89532888252875_cont_sun_m_849_4_alg».proof.Proof.Tiling
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## The blocks a position works on, read off the two clouds -/

/-- At position t the first window's block index is (t / 16, t % 16, 0). -/
theorem idx_facts0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, win0_0.index t (0 : Fin 3) = t.val / 16 ∧ win0_0.index t (1 : Fin 3) = t.val % 16 ∧ win0_0.index t (2 : Fin 3) = 0)

/-- At position t the second window's block index is (t / 16, 0, 0). -/
theorem idx_facts1 : ∀ t : Fin cfg0.N, win0_1.index t (0 : Fin 3) = t.val / 16 ∧ win0_1.index t (1 : Fin 3) = 0 ∧ win0_1.index t (2 : Fin 3) = 0 :=
  (by decide +kernel : ∀ t : Fin grid0.N, win0_1.index t (0 : Fin 3) = t.val / 16 ∧ win0_1.index t (1 : Fin 3) = 0 ∧ win0_1.index t (2 : Fin 3) = 0)

/-- Row r, coordinate k of the block of x at position t is x at batch t / 16, row 256·(t % 16) + r, coordinate k. -/
theorem xblk_apply (c : Dev nD) (t : Fin cfg0.N) (r : Fin 256) (k : Fin 3) (b : Fin 4) (n : Fin 4096)
    (hb : b.val = t.val / 16) (hn : n.val = 256 * (t.val % 16) + r.val) :
    (xblk m c t : Vec Ideal S1x256x3 .f32) (ix3 0 r k)
      = (m ((c : Thread nD τ).loc main_arg0) : S4x4096x3.Idx → EReal) (ix3 b n k) := by
  obtain ⟨e0, e1, e2⟩ := idx_facts0 t
  unfold xblk iblk
  rw [View.read_apply]
  show V m c main_arg0 _ = m (c.tc.loc main_arg0) _
  rw [V_main_arg0]
  congr 1
  funext a
  apply Fin.ext
  match a with
  | ⟨0, _⟩ => show win0_0.index t 0 * 1 + 1 * 0 = b.val; rw [e0, hb]; omega
  | ⟨1, _⟩ => show win0_0.index t 1 * 256 + 1 * r.val = n.val; rw [e1, hn]; omega
  | ⟨2, _⟩ => show win0_0.index t 2 * 3 + 1 * k.val = k.val; rw [e2]; omega

/-- The array the second window reads is y with its last two axes exchanged. -/
theorem V_main_v0 (c : Dev nD) :
    (V m c main_v0 : S4x3x4096.Idx → EReal)
      = transpose S4x3x4096 [0, 2, 1] (m ((c : Thread nD τ).loc main_arg1) : S4x4096x3.Idx → EReal) transposes_S4x4096x3_S4x3x4096_0_2_1 := by
  show StableHlo.after hostOps0 (fun b => m (c, b)) (Proc.devRef .tc main_v0) = _
  after_results

/-- Coordinate k, column q of the block of y at position t is y at batch t / 16, row q, coordinate k. -/
theorem yblk_apply (c : Dev nD) (t : Fin cfg0.N) (q : Fin 4096) (k : Fin 3) (b : Fin 4)
    (hb : b.val = t.val / 16) :
    (yblk m c t : Vec Ideal S1x3x4096 .f32) (ix3 0 k q)
      = (m ((c : Thread nD τ).loc main_arg1) : S4x4096x3.Idx → EReal) (ix3 b q k) := by
  obtain ⟨e0, e1, e2⟩ := idx_facts1 t
  unfold yblk iblk
  rw [View.read_apply]
  show V m c main_v0 _ = m (c.tc.loc main_arg1) _
  rw [V_main_v0]
  refine (congrArg _ ?_).trans (transpose_ix3_021_apply _ _ b k q)
  funext a
  apply Fin.ext
  match a with
  | ⟨0, _⟩ => show win0_1.index t 0 * 1 + 1 * 0 = b.val; rw [e0, hb]; omega
  | ⟨1, _⟩ => show win0_1.index t 1 * 3 + 1 * k.val = k.val; rw [e1]; omega
  | ⟨2, _⟩ => show win0_1.index t 2 * 4096 + 1 * q.val = q.val; rw [e2]; omega

/-- A natural number as a batch, modulo 4. -/
def fb (b : ℕ) : Fin 4 := ⟨b % 4, Nat.mod_lt _ (by norm_num)⟩
/-- A natural number as a row block, modulo 16. -/
def fi (i : ℕ) : Fin 16 := ⟨i % 16, Nat.mod_lt _ (by norm_num)⟩

/-- The squared distance the body forms at (r, q) at position t is the squared distance of row 256·(t % 16) + r of x
    and row q of y in batch t / 16. -/
theorem bdist_eq (c : Dev nD) (t : Fin cfg0.N) (r : Fin 256) (q : Fin 4096) :
    bdist (xblk m c t) (yblk m c t) r q
      = Chamfer.dist (m ((c : Thread nD τ).loc main_arg0)) (m ((c : Thread nD τ).loc main_arg1)) (fb (t.val / 16)) (Chamfer.rowOf (fi t.val) r) q := by
  have hN : cfg0.N = 64 := N_0
  have ht := t.isLt
  have hb : (fb (t.val / 16)).val = t.val / 16 := by show t.val / 16 % 4 = t.val / 16; omega
  have hn : (Chamfer.rowOf (fi t.val) r).val = 256 * (t.val % 16) + r.val := rfl
  unfold bdist bsqx bsqy bdot Chamfer.dist Chamfer.sq Chamfer.dot
  rw [xblk_apply m c t r 0 _ _ hb hn, xblk_apply m c t r 1 _ _ hb hn, xblk_apply m c t r 2 _ _ hb hn,
    yblk_apply m c t q 0 _ hb, yblk_apply m c t q 1 _ hb, yblk_apply m c t q 2 _ hb]

/-! ## What one position contributes -/

/-- The sum of the row minima of the 256 rows position t works on. -/
def rowBlk (X Y : Chamfer.Pts) (t : ℕ) : EReal :=
  ∑ r : Fin 256, Chamfer.rowMin X Y (fb (t / 16)) (Chamfer.rowOf (fi t) r)
/-- At column q, the infimum of the squared distances over the 256 rows of row block i of batch b. -/
def colBlk (X Y : Chamfer.Pts) (b i : ℕ) (q : Fin 4096) : EReal :=
  Finset.univ.inf fun r : Fin 256 => Chamfer.dist X Y (fb b) (Chamfer.rowOf (fi i) r) q
/-- The sum over the columns of batch b's column minima. -/
def colTot (X Y : Chamfer.Pts) (b : ℕ) : EReal := ∑ q : Fin 4096, Chamfer.colMin X Y (fb b) q

/-- The row minima of the block at position n sum to that position's share of the row total. -/
theorem rmin_sum (c : Dev nD) (n : ℕ) (hn : n < cfg0.N) :
    ∑ r : Fin 256, rmin m c ⟨n, hn⟩ (ix1 r)
      = rowBlk (m ((c : Thread nD τ).loc main_arg0)) (m ((c : Thread nD τ).loc main_arg1)) n := by
  unfold rowBlk
  refine Finset.sum_congr rfl fun r _ => ?_
  show k0_pay9 (F := Ideal) (xblk m c ⟨n, hn⟩) (yblk m c ⟨n, hn⟩) (ix1 r) = _
  rw [pay9_apply]
  unfold Chamfer.rowMin
  exact Finset.inf_congr rfl fun q _ => bdist_eq m c ⟨n, hn⟩ r q

/-- The column minima of the block at position n are, at each column, the infimum over the block's 256 rows. -/
theorem dblk_colmin (c : Dev nD) (n : ℕ) (hn : n < cfg0.N) (q : Fin 4096) :
    k0_pay1 (F := Ideal) (dblk m c ⟨n, hn⟩) (ix2 0 q)
      = colBlk (m ((c : Thread nD τ).loc main_arg0)) (m ((c : Thread nD τ).loc main_arg1)) (n / 16) n q := by
  rw [pay1_apply]
  unfold colBlk
  refine Finset.inf_congr rfl fun r _ => ?_
  show k0_pay8 (F := Ideal) (xblk m c ⟨n, hn⟩) (yblk m c ⟨n, hn⟩) (ix2 r q) = _
  rw [pay8_apply]
  exact bdist_eq m c ⟨n, hn⟩ r q

/-! ## The three components of the state, one by one -/

theorem st22_zero (c : Dev nD) (hn : 0 < cfg0.N) :
    (stateAt m c 0 hn).2.2 = k0_pay5 (F := Ideal) (dblk m c ⟨0, hn⟩) := by
  rw [stateAt_zero]
theorem st22_succ (c : Dev nD) (n : ℕ) (hn : n + 1 < cfg0.N) :
    (stateAt m c (n + 1) hn).2.2 = if (n + 1) % 16 = 0 then k0_pay5 (F := Ideal) (dblk m c ⟨n + 1, hn⟩)
      else k0_pay6 (dblk m c ⟨n + 1, hn⟩) (stateAt m c n (Nat.lt_of_succ_lt hn)).2.2 := by
  rw [stateAt_succ]
theorem st21_zero (c : Dev nD) (hn : 0 < cfg0.N) :
    (stateAt m c 0 hn).2.1 = k0_pay3 (F := Ideal) := by
  rw [stateAt_zero]
theorem st21_succ (c : Dev nD) (n : ℕ) (hn : n + 1 < cfg0.N) :
    (stateAt m c (n + 1) hn).2.1 = if (n + 1) % 16 = 15
      then k0_pay7 (F := Ideal) (stateAt m c n (Nat.lt_of_succ_lt hn)).2.1 (stateAt m c (n + 1) hn).2.2
      else (stateAt m c n (Nat.lt_of_succ_lt hn)).2.1 := by
  rw [stateAt_succ]

/-! ## The invariants, by induction on the position -/

/-- After position n the first accumulator is the sum of the shares of positions 0 … n. -/
theorem rowTot_inv (c : Dev nD) : ∀ (n : ℕ) (hn : n < cfg0.N) (j : S1x1.Idx),
    (stateAt m c n hn).1 j
      = ∑ t ∈ Finset.range (n + 1), rowBlk (m ((c : Thread nD τ).loc main_arg0)) (m ((c : Thread nD τ).loc main_arg1)) t := by
  intro n
  induction n with
  | zero =>
    intro hn j
    rw [stateAt_zero]
    show k0_pay4 (F := Ideal) (rmin m c ⟨0, hn⟩) (k0_pay2 (F := Ideal)) j = _
    rw [pay4_apply, pay2_apply, zero_add, rmin_sum, Finset.sum_range_one]
  | succ n ih =>
    intro hn j
    rw [stateAt_succ]
    show k0_pay4 (F := Ideal) (rmin m c ⟨n + 1, hn⟩) (stateAt m c n (Nat.lt_of_succ_lt hn)).1 j = _
    rw [pay4_apply, ih, rmin_sum, Finset.sum_range_succ _ (n + 1)]

/-- After position n the running column minima are, at each column, the infimum over row blocks 0 … n % 16 of
    batch n / 16. -/
theorem colRun_inv (c : Dev nD) : ∀ (n : ℕ) (hn : n < cfg0.N) (q : Fin 4096),
    (stateAt m c n hn).2.2 (ix2 0 q)
      = (Finset.range (n % 16 + 1)).inf fun i =>
          colBlk (m ((c : Thread nD τ).loc main_arg0)) (m ((c : Thread nD τ).loc main_arg1)) (n / 16) i q := by
  intro n
  induction n with
  | zero =>
    intro hn q
    have e : 0 % 16 + 1 = 1 := rfl
    rw [st22_zero, pay5_eq, dblk_colmin, e, Finset.range_one, Finset.inf_singleton]
  | succ n ih =>
    intro hn q
    rw [st22_succ]
    by_cases h0 : (n + 1) % 16 = 0
    · have e : fi (n + 1) = fi 0 := Fin.ext (by show (n + 1) % 16 = 0 % 16; omega)
      have e' : 0 + 1 = 1 := rfl
      rw [if_pos h0, pay5_eq, dblk_colmin, h0, e', Finset.range_one, Finset.inf_singleton]
      unfold colBlk
      rw [e]
    · have e1 : (n + 1) / 16 = n / 16 := by omega
      have e2 : (n + 1) % 16 = n % 16 + 1 := by omega
      have e : fi (n + 1) = fi (n % 16 + 1) := Fin.ext (by show (n + 1) % 16 = (n % 16 + 1) % 16; omega)
      rw [if_neg h0, pay6_apply, dblk_colmin, ih, e1, e2, Finset.range_add_one (n := n % 16 + 1), Finset.inf_insert, min_comm]
      congr 1
      unfold colBlk
      rw [e]

/-- The infimum over all 16 row blocks of a batch is the batch's column minimum. -/
theorem inf_blocks (X Y : Chamfer.Pts) (b : ℕ) (q : Fin 4096) :
    (Finset.range 16).inf (fun i => colBlk X Y b i q) = Chamfer.colMin X Y (fb b) q := by
  unfold Chamfer.colMin
  rw [Chamfer.inf_rowOf]
  apply le_antisymm
  · refine Finset.le_inf fun i _ => ?_
    refine (Finset.inf_le (Finset.mem_range.2 i.isLt)).trans_eq ?_
    have e : fi i.val = i := Fin.ext (Nat.mod_eq_of_lt i.isLt)
    unfold colBlk
    rw [e]
  · refine Finset.le_inf fun i _ => ?_
    exact Finset.inf_le (f := fun i : Fin 16 => Finset.univ.inf fun r : Fin 256 => Chamfer.dist X Y (fb b) (Chamfer.rowOf i r) q) (Finset.mem_univ (fi i))

/-- After position n the second accumulator is the sum of the column totals of the batches finished by then. -/
theorem colTot_inv (c : Dev nD) : ∀ (n : ℕ) (hn : n < cfg0.N) (j : S1x1.Idx),
    (stateAt m c n hn).2.1 j
      = ∑ b ∈ Finset.range ((n + 1) / 16), colTot (m ((c : Thread nD τ).loc main_arg0)) (m ((c : Thread nD τ).loc main_arg1)) b := by
  intro n
  induction n with
  | zero =>
    intro hn j
    have e : (0 + 1) / 16 = 0 := rfl
    rw [st21_zero, pay3_apply, e, Finset.range_zero, Finset.sum_empty]
  | succ n ih =>
    intro hn j
    rw [st21_succ]
    by_cases h15 : (n + 1) % 16 = 15
    · have e : (n + 1 + 1) / 16 = (n + 1) / 16 + 1 := by omega
      rw [if_pos h15, pay7_apply, ih, e, Finset.sum_range_succ]
      congr 1
      unfold colTot
      refine Finset.sum_congr rfl fun q _ => ?_
      rw [colRun_inv, h15]
      exact inf_blocks _ _ _ q
    · have e : (n + 1 + 1) / 16 = (n + 1) / 16 := by omega
      rw [if_neg h15, ih, e]

/-! ## After the last position -/

/-- After the last point the first accumulator holds the sum of all row minima. -/
theorem rowTot_final (c : Dev nD) (h : 63 < cfg0.N) :
    (stateAt m c 63 h).1 = fun _ => Chamfer.rowSum (m ((c : Thread nD τ).loc main_arg0)) (m ((c : Thread nD τ).loc main_arg1)) := by
  funext j
  have e : 63 + 1 = 64 := rfl
  rw [rowTot_inv, e, Finset.sum_range, Chamfer.sum_posOf]
  unfold Chamfer.rowSum
  refine Finset.sum_congr rfl fun b _ => ?_
  rw [Chamfer.sum_rowOf]
  refine Finset.sum_congr rfl fun i _ => ?_
  have hb := b.isLt
  have hi := i.isLt
  have e1 : fb ((Chamfer.posOf b i).val / 16) = b := Fin.ext (by show (16 * b.val + i.val) / 16 % 4 = b.val; omega)
  have e2 : fi (Chamfer.posOf b i).val = i := Fin.ext (by show (16 * b.val + i.val) % 16 = i.val; omega)
  unfold rowBlk
  rw [e1, e2]

/-- After the last point the second accumulator holds the sum of all column minima. -/
theorem colTot_final (c : Dev nD) (h : 63 < cfg0.N) :
    (stateAt m c 63 h).2.1 = fun _ => Chamfer.colSum (m ((c : Thread nD τ).loc main_arg0)) (m ((c : Thread nD τ).loc main_arg1)) := by
  funext j
  have e : (63 + 1) / 16 = 4 := rfl
  rw [colTot_inv, e, Finset.sum_range]
  unfold Chamfer.colSum
  refine Finset.sum_congr rfl fun b _ => ?_
  have e1 : fb b.val = b := Fin.ext (Nat.mod_eq_of_lt b.isLt)
  unfold colTot
  rw [e1]

end Cert.KernelIdeal.Hand

end
-- ==== Proof.OutI.lean ====
/-
  The idealized kernel's result.

  Each accumulator's array is one word, written back once, after the last grid point, from a staging buffer of the
  same one word: so after the run it holds what the last point left, which is the corresponding total of the Chamfer
  loss.  The host lines after the region divide each total by 16384 and add the quotients: the loss.
-/
import proofs.«108323_g89532888252875_cont_sun_m_849_4_alg».proof.Proof.FrameI
import proofs.«108323_g89532888252875_cont_sun_m_849_4_alg».proof.Proof.ValueI
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Idealize.ShloMosaic.StableHlo

theorem last_lt : 63 < cfg0.N := by show 63 < grid0.N; rw [N_0]; decide

/-- A one-word array has one index. -/
instance subsingleton_S1x1 : Subsingleton S1x1.Idx :=
  ⟨fun a b => funext fun d => match d with
    | ⟨0, _⟩ => Subsingleton.elim (α := Fin 1) _ _
    | ⟨1, _⟩ => Subsingleton.elim (α := Fin 1) _ _⟩

/-- Both accumulators' windows sit at block (0, 0) at every point. -/
theorem idx_out : ∀ t : Fin cfg0.N, win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

section generic

variable {F : FTy → Type} [FloatOps F]
variable (m : (ℓ : Loc nD τ sig) → Buf (Elt F) ℓ) (ρ : Dev nD → PrngReg)

/-- Any two readings of a one-word array agree. -/
theorem oneWord {α : Type} (G : S1x1.Idx → α) (a b : S1x1.Idx) : G a = G b := congrArg G (Subsingleton.elim a b)

/-- After the run the first accumulator's array holds what the last point left. -/
theorem arr2_final (c : Dev nD) : (dats m 0 c).arrAt 2 cfg0.N = (stateAt m c 63 last_lt).1 := by
  refine (dats m 0 c).arrAt_eq_of_cover 2 _ (fun t ht => ?_) (fun i => ⟨⟨63, last_lt⟩, (flush2_iff _).mpr rfl, ?_⟩)
  · have h63 : t.val = 63 := (flush2_iff t).mp ht
    obtain ⟨n, hn⟩ := t
    dsimp only at h63; subst h63
    show (cfg0.win 2).cut (grid0.coords ⟨63, hn⟩) ((dats m 0 c).after 2 ⟨63, hn⟩) = _
    rw [after2]
    funext j
    rw [View.read_apply]
    exact oneWord (stateAt m c 63 last_lt).1 _ _
  · show i ∈ ((View.whole main_v1_0).slice (win0_2.rect ⟨63, last_lt⟩)).set
    rw [View.set_slice_whole, Rect.mem_set_unit]
    obtain ⟨e0, e1, -, -⟩ := idx_out ⟨63, last_lt⟩
    intro a
    match a with
    | ⟨0, _⟩ => show win0_2.index ⟨63, last_lt⟩ (0 : Fin 2) * 1 ≤ (i 0).val ∧ (i 0).val < win0_2.index ⟨63, last_lt⟩ (0 : Fin 2) * 1 + 1; have hi : (i 0).val < 1 := (i 0).isLt; omega
    | ⟨1, _⟩ => show win0_2.index ⟨63, last_lt⟩ (1 : Fin 2) * 1 ≤ (i 1).val ∧ (i 1).val < win0_2.index ⟨63, last_lt⟩ (1 : Fin 2) * 1 + 1; have hi : (i 1).val < 1 := (i 1).isLt; omega

/-- After the run the second accumulator's array holds what the last point left. -/
theorem arr3_final (c : Dev nD) : (dats m 0 c).arrAt 3 cfg0.N = (stateAt m c 63 last_lt).2.1 := by
  refine (dats m 0 c).arrAt_eq_of_cover 3 _ (fun t ht => ?_) (fun i => ⟨⟨63, last_lt⟩, (flush3_iff _).mpr rfl, ?_⟩)
  · have h63 : t.val = 63 := (flush3_iff t).mp ht
    obtain ⟨n, hn⟩ := t
    dsimp only at h63; subst h63
    show (cfg0.win 3).cut (grid0.coords ⟨63, hn⟩) ((dats m 0 c).after 3 ⟨63, hn⟩) = _
    rw [after3]
    funext j
    rw [View.read_apply]
    exact oneWord (stateAt m c 63 last_lt).2.1 _ _
  · show i ∈ ((View.whole main_v1_1).slice (win0_3.rect ⟨63, last_lt⟩)).set
    rw [View.set_slice_whole, Rect.mem_set_unit]
    obtain ⟨-, -, e0, e1⟩ := idx_out ⟨63, last_lt⟩
    intro a
    match a with
    | ⟨0, _⟩ => show win0_3.index ⟨63, last_lt⟩ (0 : Fin 2) * 1 ≤ (i 0).val ∧ (i 0).val < win0_3.index ⟨63, last_lt⟩ (0 : Fin 2) * 1 + 1; have hi : (i 0).val < 1 := (i 0).isLt; omega
    | ⟨1, _⟩ => show win0_3.index ⟨63, last_lt⟩ (1 : Fin 2) * 1 ≤ (i 1).val ∧ (i 1).val < win0_3.index ⟨63, last_lt⟩ (1 : Fin 2) * 1 + 1; have hi : (i 1).val < 1 := (i 1).isLt; omega

end generic

/-! ## At the ideal instance: the loss -/

variable (m : (ℓ : Loc nD τ sig) → Buf (Elt Ideal) ℓ) (ρ : Dev nD → PrngReg)

/-- The host lines after the region leave the loss in the result buffer. -/
theorem tail_v6 (c : Dev nD) :
    Pipeline.afterTail₀ cfgs (dats m) 0 (V0 m) [hostOps1] c main_v6
      = fun _ => Chamfer.loss (m ((c : Thread nD τ).loc main_arg0)) (m ((c : Thread nD τ).loc main_arg1)) := by
  unfold Pipeline.afterTail₀
  show StableHlo.after hostOps1 _ (Proc.devRef .tc main_v6) = _
  after_results
  have e2 : Pipeline.withArrays (cfgs 0).spec c (V0 m c) (fun w => (dats m 0 c).arrAt w (cfgs 0).N) (Proc.tc.devRef main_v1_0)
      = fun _ => Chamfer.rowSum (m ((c : Thread nD τ).loc main_arg0)) (m ((c : Thread nD τ).loc main_arg1)) :=
    (Pipeline.withArrays_arr spec0 launch0.win.arr_inj c _ _ 2).trans ((arr2_final m c).trans (rowTot_final m c last_lt))
  have e3 : Pipeline.withArrays (cfgs 0).spec c (V0 m c) (fun w => (dats m 0 c).arrAt w (cfgs 0).N) (Proc.tc.devRef main_v1_1)
      = fun _ => Chamfer.colSum (m ((c : Thread nD τ).loc main_arg0)) (m ((c : Thread nD τ).loc main_arg1)) :=
    (Pipeline.withArrays_arr spec0 launch0.win.arr_inj c _ _ 3).trans ((arr3_final m c).trans (colTot_final m c last_lt))
  rw [e2, e3]
  rfl

/-- The idealized kernel's run: the result buffer ends at the loss of the two arguments, which end unchanged. -/
theorem run_value : θ_run defs (onTc (τ := τ) (main (F := Ideal))) ⟨m, fun _ => 0, ρ⟩ (fun r => ∀ c : Dev nD,
      r.2.mem ((c.tc : Thread nD τ).loc main_v6) = (fun _ => Chamfer.loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v6 (Pipeline.mem_restRefs_of main_v6 (by decide) (by decide))).trans (tail_v6 m c),
     ((h c).1 0).trans ((((dats m) 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.Hand

end
-- ==== Proof.RefValue.lean ====
/-
  The reference program's result, at the ideal instance, is the Chamfer loss of its two arguments.

  The reference forms every squared distance as |x_n|² + |y_m|² − 2⟨x_n, y_m⟩ with each three-term sum started
  from zero, takes the minima over either axis from +∞, averages the row minima and the column minima over the
  4096 points of each batch, adds the two averages and averages over the 4 batches.  Dividing by 4096 and then
  by 4 is dividing by 16384, and division by a positive real distributes over sums of extended reals.
-/
import proofs.«108323_g89532888252875_cont_sun_m_849_4_alg».proof.Defs
import proofs.«108323_g89532888252875_cont_sun_m_849_4_alg».proof.Proof.Gen.ReferenceIdeal.Run
import proofs.«108323_g89532888252875_cont_sun_m_849_4_alg».proof.Proof.Gen.ReferenceIdeal.Read
import proofs.«108323_g89532888252875_cont_sun_m_849_4_alg».proof.Proof.Spec
import Idealize.ShloMosaic.Lib.ValueIdx
import Idealize.ShloMosaic.Lib.ValueIdxRank1
import Idealize.ShloMosaic.PureOps.Ideal.Laws

noncomputable section

namespace Cert.ReferenceIdeal.RefValue

open Idealize.ShloMosaic Idealize.ShloMosaic.TcCoe Idealize.ShloMosaic.ValueIdx
open Cert.ReferenceIdeal Cert.ReferenceIdeal.Gen

/-! ### The constants the reference spells, as extended reals -/

/-- The word of +∞. -/
theorem c_top : Ideal.ofBits .f32 0x7F800000#32 = (⊤ : EReal) := by simp [Ideal.ofBits, Ideal.ieee]
/-- The word of 4096.0. -/
theorem c_4096 : Ideal.ofBits .f32 0x45800000#32 = ((4096 : ℝ) : EReal) := by
  simp [Ideal.ofBits, Ideal.ieee, -EReal.coe_mul]; norm_num
/-- The word of 4.0. -/
theorem c_4 : Ideal.ofBits .f32 0x40800000#32 = ((4 : ℝ) : EReal) := by
  simp [Ideal.ofBits, Ideal.ieee, -EReal.coe_mul]; norm_num
/-- The word of 1.0. -/
theorem c_1 : Ideal.ofBits .f32 0x3F800000#32 = (1 : EReal) := by
  simp [Ideal.ofBits, Ideal.ieee, -EReal.coe_mul]; norm_num
/-- The word of 16384.0. -/
theorem c_16384 : Ideal.ofBits .f32 0x46800000#32 = ((16384 : ℝ) : EReal) := by
  simp [Ideal.ofBits, Ideal.ieee, -EReal.coe_mul]; norm_num

/-! ### The stages' index maps at coordinates -/

theorem idx_v1_ix (b : Fin 4) (n : Fin 4096) (k : Fin 3) : Read.idx_main_v1 (ix2 b n) k = ix3 b n k :=
  funext fun a => Fin.ext (by match a with | ⟨0, _⟩ => rfl | ⟨1, _⟩ => rfl | ⟨2, _⟩ => rfl)
theorem idx_v3_ix (b : Fin 4) (n : Fin 4096) (k : Fin 3) : Read.idx_main_v3 (ix2 b n) k = ix3 b n k :=
  funext fun a => Fin.ext (by match a with | ⟨0, _⟩ => rfl | ⟨1, _⟩ => rfl | ⟨2, _⟩ => rfl)
theorem lidx_v4_ix (b : Fin 4) (n m : Fin 4096) (k : Fin 3) : Read.lidx_main_v4 (ix3 b n m) k = ix3 b n k :=
  funext fun a => Fin.ext (by match a with | ⟨0, _⟩ => rfl | ⟨1, _⟩ => rfl | ⟨2, _⟩ => rfl)
theorem ridx_v4_ix (b : Fin 4) (n m : Fin 4096) (k : Fin 3) : Read.ridx_main_v4 (ix3 b n m) k = ix3 b m k :=
  funext fun a => Fin.ext (by match a with | ⟨0, _⟩ => rfl | ⟨1, _⟩ => rfl | ⟨2, _⟩ => rfl)
theorem idx_v57_ix (b : Fin 4) (n m : Fin 4096) : Read.idx_main_v5 (Read.idx_main_v7 (ix3 b n m)) = ix2 b n :=
  funext fun a => Fin.ext (by match a with | ⟨0, _⟩ => rfl | ⟨1, _⟩ => rfl)
theorem idx_v68_ix (b : Fin 4) (n m : Fin 4096) : Read.idx_main_v6 (Read.idx_main_v8 (ix3 b n m)) = ix2 b m :=
  funext fun a => Fin.ext (by match a with | ⟨0, _⟩ => rfl | ⟨1, _⟩ => rfl)
theorem idx_v15_ix (b : Fin 4) (k : Fin 4096) : Read.idx_main_v15 (ix1 b) k = ix2 b k :=
  funext fun a => Fin.ext (by match a with | ⟨0, _⟩ => rfl | ⟨1, _⟩ => rfl)
theorem idx_v18_ix (b : Fin 4) (k : Fin 4096) : Read.idx_main_v18 (ix1 b) k = ix2 b k :=
  funext fun a => Fin.ext (by match a with | ⟨0, _⟩ => rfl | ⟨1, _⟩ => rfl)

/-! ### The squared distances -/

/-- The first three-term sum from zero is |x_n|². -/
theorem v1_at (x0 : (⟨S4x4096x3, .f32⟩ : BufTy).Contents (Elt Ideal)) (b : Fin 4) (n : Fin 4096) :
    Read.val_main_v1 (F := Ideal) x0 (ix2 b n) = Chamfer.sq x0 b n := by
  rw [Read.val_main_v1_apply, Fin.sum_univ_three]
  simp only [Read.val_main_v0_apply, Read.val_main_cst_apply, idx_v1_ix, Ideal.mulf_def, Ideal.ofBits_def,
    Ideal.ofBits_zero_f32, zero_add]
  rfl

/-- The second three-term sum from zero is |y_m|². -/
theorem v3_at (x1 : (⟨S4x4096x3, .f32⟩ : BufTy).Contents (Elt Ideal)) (b : Fin 4) (n : Fin 4096) :
    Read.val_main_v3 (F := Ideal) x1 (ix2 b n) = Chamfer.sq x1 b n := by
  rw [Read.val_main_v3_apply, Fin.sum_univ_three]
  simp only [Read.val_main_v2_apply, Read.val_main_cst_0_apply, idx_v3_ix, Ideal.mulf_def, Ideal.ofBits_def,
    Ideal.ofBits_zero_f32, zero_add]
  rfl

/-- The contraction over the three coordinates is ⟨x_n, y_m⟩. -/
theorem v4_at (x0 x1 : (⟨S4x4096x3, .f32⟩ : BufTy).Contents (Elt Ideal)) (b : Fin 4) (n m : Fin 4096) :
    Read.val_main_v4 (F := Ideal) x0 x1 (ix3 b n m) = Chamfer.dot x0 x1 b n m := by
  rw [Read.val_main_v4_apply, Fin.sum_univ_three]
  simp only [lidx_v4_ix, ridx_v4_ix]
  rfl

/-- The distance array at (b, n, m) is the squared distance of point n of x and point m of y. -/
theorem v12_at (x0 x1 : (⟨S4x4096x3, .f32⟩ : BufTy).Contents (Elt Ideal)) (b : Fin 4) (n m : Fin 4096) :
    Read.val_main_v12 (F := Ideal) x0 x1 (ix3 b n m) = Chamfer.dist x0 x1 b n m := by
  rw [Read.val_main_v12_apply, Read.val_main_v9_apply, Read.val_main_v11_apply, Read.val_main_v7_apply,
    Read.val_main_v5_apply, Read.val_main_v8_apply, Read.val_main_v6_apply, Read.val_main_v10_apply,
    Read.val_main_cst_1_apply, idx_v57_ix, idx_v68_ix, v1_at, v3_at, v4_at]
  rfl

/-! ### The two minima -/

/-- The minimum over the last axis, from +∞, is the infimum over the points of y. -/
theorem v13_at (x0 x1 : (⟨S4x4096x3, .f32⟩ : BufTy).Contents (Elt Ideal)) (b : Fin 4) (n : Fin 4096) :
    Read.val_main_v13 (F := Ideal) x0 x1 (ix2 b n) = Chamfer.rowMin x0 x1 b n := by
  have h : S4x4096x4096.Reduces [2] S4x4096 := by decide
  unfold Read.val_main_v13
  refine (Host.reduce_eq_fold_single (FloatOps.minimumf (F := Ideal) (φ := .f32)) _ _
    reducesTo_S4x4096x4096_S4x4096_d2 h h_S_ (ix2 b n)).trans ?_
  have hf : (Read.val_main_v12 (F := Ideal) x0 x1 ∘ h.lift (ix2 b n))
      = fun m : Fin 4096 => Chamfer.dist x0 x1 b n m := by
    refine funext fun (m : Fin 4096) => ?_
    have e : h.lift (ix2 b n) m = ix3 b n m :=
      funext fun a => Fin.ext (by match a with | ⟨0, _⟩ => rfl | ⟨1, _⟩ => rfl | ⟨2, _⟩ => rfl)
    show Read.val_main_v12 (F := Ideal) x0 x1 (h.lift (ix2 b n) m) = _
    rw [e, v12_at]
  rw [hf, Read.val_main_cst_2_apply]
  show Finset.univ.fold _ (Ideal.ofBits .f32 0x7F800000#32) _ = _
  rw [c_top]
  rfl

/-- The minimum over the middle axis, from +∞, is the infimum over the points of x. -/
theorem v14_at (x0 x1 : (⟨S4x4096x3, .f32⟩ : BufTy).Contents (Elt Ideal)) (b : Fin 4) (m : Fin 4096) :
    Read.val_main_v14 (F := Ideal) x0 x1 (ix2 b m) = Chamfer.colMin x0 x1 b m := by
  have h : S4x4096x4096.Reduces [1] S4x4096 := by decide
  unfold Read.val_main_v14
  refine (Host.reduce_eq_fold_single (FloatOps.minimumf (F := Ideal) (φ := .f32)) _ _
    reducesTo_S4x4096x4096_S4x4096_d1 h h_S_ (ix2 b m)).trans ?_
  have hf : (Read.val_main_v12 (F := Ideal) x0 x1 ∘ h.lift (ix2 b m))
      = fun n : Fin 4096 => Chamfer.dist x0 x1 b n m := by
    refine funext fun (n : Fin 4096) => ?_
    have e : h.lift (ix2 b m) n = ix3 b n m :=
      funext fun a => Fin.ext (by match a with | ⟨0, _⟩ => rfl | ⟨1, _⟩ => rfl | ⟨2, _⟩ => rfl)
    show Read.val_main_v12 (F := Ideal) x0 x1 (h.lift (ix2 b m) n) = _
    rw [e, v12_at]
  rw [hf, Read.val_main_cst_3_apply]
  show Finset.univ.fold _ (Ideal.ofBits .f32 0x7F800000#32) _ = _
  rw [c_top]
  rfl

/-! ### The sums over the points, divided by 4096 -/

/-- The row minima of batch b, summed from zero. -/
theorem v15_at (x0 x1 : (⟨S4x4096x3, .f32⟩ : BufTy).Contents (Elt Ideal)) (b : Fin 4) :
    Read.val_main_v15 (F := Ideal) x0 x1 (ix1 b) = ∑ n : Fin 4096, Chamfer.rowMin x0 x1 b n := by
  rw [Read.val_main_v15_apply, Read.val_main_cst_4_apply]
  simp only [idx_v15_ix, v13_at, Ideal.ofBits_def, Ideal.ofBits_zero_f32, zero_add]

/-- The column minima of batch b, summed from zero. -/
theorem v18_at (x0 x1 : (⟨S4x4096x3, .f32⟩ : BufTy).Contents (Elt Ideal)) (b : Fin 4) :
    Read.val_main_v18 (F := Ideal) x0 x1 (ix1 b) = ∑ m : Fin 4096, Chamfer.colMin x0 x1 b m := by
  rw [Read.val_main_v18_apply, Read.val_main_cst_6_apply]
  simp only [idx_v18_ix, v14_at, Ideal.ofBits_def, Ideal.ofBits_zero_f32, zero_add]

/-- Batch b's two averages over its 4096 points, added: each sum times the real 1/4096. -/
theorem v23_at (x0 x1 : (⟨S4x4096x3, .f32⟩ : BufTy).Contents (Elt Ideal)) (b : Fin 4) :
    Read.val_main_v23 (F := Ideal) x0 x1 (ix1 b)
      = (∑ n : Fin 4096, Chamfer.rowMin x0 x1 b n) * ((1 / 4096 : ℝ) : EReal)
        + (∑ m : Fin 4096, Chamfer.colMin x0 x1 b m) * ((1 / 4096 : ℝ) : EReal) := by
  rw [Read.val_main_v23_apply, Read.val_main_v22_apply, Read.val_main_v20_apply, Read.val_main_v17_apply,
    Read.val_main_v21_apply, Read.val_main_v16_apply, Read.val_main_v19_apply, Read.val_main_cst_8_apply,
    Read.val_main_cst_5_apply, Read.val_main_cst_7_apply, v15_at, v18_at]
  simp only [Ideal.addf_def, Ideal.mulf_def, Ideal.hostDivf_def, Ideal.ofBits_def, c_1, c_4096, one_mul]
  rw [Ideal.div_coe (by norm_num), Ideal.div_coe (by norm_num)]

/-! ### The scalar law -/

/-- A finite sum of extended reals times a nonnegative real is the sum of the products. -/
theorem sum_mul_coe {ι : Type} (s : Finset ι) (f : ι → EReal) {c : ℝ} (hc : 0 ≤ c) :
    (∑ i ∈ s, f i) * (c : EReal) = ∑ i ∈ s, f i * (c : EReal) := by
  induction s using Finset.cons_induction with
  | empty => simp
  | cons a s ha ih =>
    rw [Finset.sum_cons, Finset.sum_cons,
      EReal.right_distrib_of_nonneg_of_ne_top (EReal.coe_nonneg.mpr hc) (EReal.coe_ne_top c), ih]

/-- Averaging over 4096 points and then over 4 batches is dividing each total by 16384. -/
theorem scalar_law (R C : Fin 4 → EReal) :
    (∑ b, (R b * ((1 / 4096 : ℝ) : EReal) + C b * ((1 / 4096 : ℝ) : EReal))) * ((1 / 4 : ℝ) : EReal)
      = (∑ b, R b) * ((1 / 16384 : ℝ) : EReal) + (∑ b, C b) * ((1 / 16384 : ℝ) : EReal) := by
  have h4 : (0 : ℝ) ≤ 1 / 4 := by norm_num
  have h16 : (0 : ℝ) ≤ 1 / 16384 := by norm_num
  have hc : ((1 / 4096 : ℝ) : EReal) * ((1 / 4 : ℝ) : EReal) = ((1 / 16384 : ℝ) : EReal) := by
    rw [← EReal.coe_mul]; norm_num
  rw [sum_mul_coe _ _ h4, sum_mul_coe _ _ h16, sum_mul_coe _ _ h16, ← Finset.sum_add_distrib]
  refine Finset.sum_congr rfl fun b _ => ?_
  rw [EReal.right_distrib_of_nonneg_of_ne_top (EReal.coe_nonneg.mpr h4) (EReal.coe_ne_top _), mul_assoc,
    mul_assoc, hc]

/-! ### The result -/

/-- The reference's last stage, as a function of the two argument arrays, is the loss at its one index. -/
theorem result_eq (x0 x1 : (⟨S4x4096x3, .f32⟩ : BufTy).Contents (Elt Ideal)) :
    Cert.ReferenceIdeal.Read.val_main_v25 (F := Ideal) x0 x1 = fun _ => Chamfer.loss x0 x1 := by
  funext i
  rw [Read.val_main_v25_apply, Read.val_main_v24_apply, Read.val_main_cst_9_apply, Read.val_main_cst_10_apply,
    ← Equiv.sum_comp (idxEquiv1 (n := 4)).symm]
  have hs : ∀ b : Fin 4, Read.val_main_v23 (F := Ideal) x0 x1 ((idxEquiv1 (n := 4)).symm b)
      = (∑ n : Fin 4096, Chamfer.rowMin x0 x1 b n) * ((1 / 4096 : ℝ) : EReal)
        + (∑ m : Fin 4096, Chamfer.colMin x0 x1 b m) * ((1 / 4096 : ℝ) : EReal) := fun b => v23_at x0 x1 b
  simp only [hs, Ideal.hostDivf_def, Ideal.ofBits_def, Ideal.ofBits_zero_f32, zero_add, c_4]
  rw [Ideal.div_coe (by norm_num), scalar_law]
  unfold Chamfer.loss Chamfer.rowSum Chamfer.colSum Chamfer.c16384
  rw [c_16384, Ideal.div_coe (by norm_num), Ideal.div_coe (by norm_num)]

end Cert.ReferenceIdeal.RefValue

end
-- ==== Proof.lean ====
/-
  The Chamfer loss kernel against its reference, over the extended reals.

  For two batches of four clouds of 4096 points in space, x and y, the loss is
  (∑_b ∑_n min_m d(b,n,m)) / 16384 + (∑_b ∑_m min_n d(b,n,m)) / 16384 with
  d(b,n,m) = |x_n|² + |y_m|² − 2⟨x_n, y_m⟩ (the points of batch b).

  The kernel walks a 4 × 16 grid: at position (b, i) it forms the 256 × 4096 block of distances between rows
  256·i … 256·i + 255 of x and all of y, adds the block's row minima to one accumulator, keeps the running
  column minima of the batch in a scratch row, and after the batch's last row block adds that row's sum to a
  second accumulator; the host divides each accumulator by 16384 and adds.  The reference forms all distances at
  once, takes both families of minima, and averages over the points and then over the batches.

  The three programs run to the end without a fault and leave their arguments unchanged: for the two kernel
  programs this is the frame over the grid (the accumulators and the scratch row named after every point); for
  the reference it is its run with the result dropped.  The idealized kernel differs from the printed one only in
  six round trips through a narrower float format, each the identity over the reals.  At the ideal instance both
  programs end at the loss of their arguments: the kernel because after the last position the accumulators hold
  the two totals (induction over the positions, then sums and infima over rows regrouped by blocks of 256), the
  reference because dividing by 4096 and then by 4 is dividing by 16384 and division by a positive real
  distributes over sums of extended reals.  No finiteness of the inputs is used.
-/
import proofs.«108323_g89532888252875_cont_sun_m_849_4_alg».proof.Defs
import proofs.«108323_g89532888252875_cont_sun_m_849_4_alg».proof.Proof.Gen.Kernel
import proofs.«108323_g89532888252875_cont_sun_m_849_4_alg».proof.Proof.Gen.KernelIdeal
import proofs.«108323_g89532888252875_cont_sun_m_849_4_alg».proof.Proof.Gen.ReferenceIdeal
import proofs.«108323_g89532888252875_cont_sun_m_849_4_alg».proof.Proof.Gen.Pre_finite_inputs
import proofs.«108323_g89532888252875_cont_sun_m_849_4_alg».proof.Proof.Gen.ReferenceIdeal.Run
import proofs.«108323_g89532888252875_cont_sun_m_849_4_alg».proof.Proof.Gen.ReferenceIdeal.Read
import proofs.«108323_g89532888252875_cont_sun_m_849_4_alg».proof.Proof.FrameK
import proofs.«108323_g89532888252875_cont_sun_m_849_4_alg».proof.Proof.OutI
import proofs.«108323_g89532888252875_cont_sun_m_849_4_alg».proof.Proof.RefValue
import Idealize.ShloMosaic.Adequacy
import Idealize.ShloMosaic.Init

noncomputable section

namespace Cert.Proof

open Idealize.ShloMosaic Idealize.SL.Sem

/-- The printed kernel runs and keeps its arguments. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Each of the six removed round trips through the narrower format is the identity over the reals and the
    rounding at the word level. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16⟩

/-- Both idealized programs end at the loss of the arguments they agree on. -/
theorem algebraic : Cert.algebraic_KernelIdeal_ReferenceIdeal := by
  intro m ρ m' ρ' _ hagree
  refine ⟨fun c => fun _ => Chamfer.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v25_eq _ _).trans (Cert.ReferenceIdeal.RefValue.result_eq _ _)).trans ?_
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
   frame_k, frame_ki, frame_ri, preserves, algebraic⟩

end Cert.Proof

end
